-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S1024x512 .f32) (main_arg6 : FVec F S512 .f32) (main_arg7 : FVec F S512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S16x64x512 .f32) (main_arg1 : FVec F S1024x512 .f32) (main_arg2 : FVec F S512 .f32) (main_arg3 : FVec F S512x512 .f32) (main_arg4 : FVec F S512 .f32) (main_arg5 : FVec F S1024x512 .f32) (main_arg6 : FVec F S512 .f32) (main_arg7 : FVec F S512 .f32) (main_arg8 : FVec F S512 .f32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S16x64x512 : Shape := ⟨3, ![16, 64, 512]⟩
abbrev S1024x512 : Shape := ⟨2, ![1024, 512]⟩
abbrev S512 : Shape := ⟨1, ![512]⟩
abbrev S512x512 : Shape := ⟨2, ![512, 512]⟩
abbrev S1x64x512 : Shape := ⟨3, ![1, 64, 512]⟩
abbrev S64x512 : Shape := ⟨2, ![64, 512]⟩
abbrev S64x1x512 : Shape := ⟨3, ![64, 1, 512]⟩
abbrev S64x64x512 : Shape := ⟨3, ![64, 64, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 18
  | .vmem => 16
  | .smem => 0
  | _ => 0

abbrev bufTy : (tb : Table) → Fin (tcTables nBuf tb) → BufTy
  | .hbm, ⟨0, _⟩ => ⟨S16x64x512, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S16x64x512, .f32⟩
  | .hbm, ⟨15, _⟩ => ⟨S1024x512, .f32⟩
  | .hbm, ⟨16, _⟩ => ⟨S1024x512, .f32⟩
  | .hbm, ⟨17, _⟩ => ⟨S16x64x512, .f32⟩
  | .local _ .vmem, ⟨0, _⟩ => ⟨S1x64x512, .f32⟩
  | .local _ .vmem, ⟨1, _⟩ => ⟨S1x64x512, .f32⟩
  | .local _ .vmem, ⟨2, _⟩ => ⟨S512x512, .f32⟩
  | .local _ .vmem, ⟨3, _⟩ => ⟨S512x512, .f32⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S512x512, .f32⟩
  | .local _ .vmem, ⟨8, _⟩ => ⟨S512x512, .f32⟩
  | .local _ .vmem, ⟨9, _⟩ => ⟨S512, .f32⟩
  | .local _ .vmem, ⟨10, _⟩ => ⟨S1x64x512, .f32⟩
  | .local _ .vmem, ⟨11, _⟩ => ⟨S1x64x512, .f32⟩
  | .local _ .vmem, ⟨12, _⟩ => ⟨S1024x512, .f32⟩
  | .local _ .vmem, ⟨13, _⟩ => ⟨S512, .f32⟩
  | .local _ .vmem, ⟨14, _⟩ => ⟨S512, .f32⟩
  | .local _ .vmem, ⟨15, _⟩ => ⟨S1024x512, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S1024x512_S512x512_0_0 : S1024x512.Slices ![0, 0] S512x512
  slices_S1024x512_S512x512_512_0 : S1024x512.Slices ![512, 0] S512x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S512_S1x1x512 : S512.ShapeCasts S1x1x512
  broadcasts_S1x1x512_S64x64x512 : S1x1x512.Broadcasts S64x64x512
  shapeCasts_S64x64x512_S4096x512 : S64x64x512.ShapeCasts S4096x512
  shapeCasts_S4096x512_S64x64x512 : S4096x512.ShapeCasts S64x64x512
  reduces_S64x64x512_S64x512 : S64x64x512.Reduces [1] S64x512
  shapeCasts_S512_S1x512 : S512.ShapeCasts S1x512
  broadcasts_S1x512_S64x512 : S1x512.Broadcasts S64x512
  shapeCasts_S16x64x512_S1024x512 : S16x64x512.ShapeCasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  broadcasts_S1x512_S1024x512 : S1x512.Broadcasts S1024x512
  shapeCasts_S1024x512_S16x64x512 : S1024x512.ShapeCasts S16x64x512
  dot_S64x512_S512x512_S64x512_1_0_0_1_n_n_wf : DotDims.WF S64x512 S512x512 S64x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S16x64x512.size a
  hwx0_0 : ∀ i : grid0.Coords, EltTy.bits .f32 = 32 ∨ (Rect.block (s := S16x64x512) S1x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x512.size a ≤ S16x64x512.size a
  hwx0_9 : ∀ i : grid0.Coords, EltTy.bits .f32 = 32 ∨ (Rect.block (s := S16x64x512) S1x64x512.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .f32 = 32 ∨ (Rect.block (s := S1024x512) S1024x512.size (cc1_transform_3 i) (hinb1_3 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x512 : Shape := ⟨3, ![16, 64, 512]⟩
abbrev S1024x512 : Shape := ⟨2, ![1024, 512]⟩
abbrev S512 : Shape := ⟨1, ![512]⟩
abbrev S512x512 : Shape := ⟨2, ![512, 512]⟩
abbrev S16x64x1x512 : Shape := ⟨4, ![16, 64, 1, 512]⟩
abbrev S16x1x64x512 : Shape := ⟨4, ![16, 1, 64, 512]⟩
abbrev S16x64x64x512 : Shape := ⟨4, ![16, 64, 64, 512]⟩
abbrev S1x1x1x512 : Shape := ⟨4, ![1, 1, 1, 512]⟩
abbrev S_ : Shape := ⟨0, ![]⟩
abbrev S16x64x1024 : Shape := ⟨3, ![16, 64, 1024]⟩
abbrev S1024x1024 : Shape := ⟨2, ![1024, 1024]⟩
abbrev S1x512 : Shape := ⟨2, ![1, 512]⟩

abbrev nBuf : Space → Nat
  | .hbm => 99
  | .vmem => 0
  | .smem => 0
  | _ => 0

abbrev bufTy : (tb : Table) → Fin (tcTables nBuf tb) → BufTy
  | .hbm, ⟨0, _⟩ => ⟨S16x64x512, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S16x64x512, .f32⟩
  | .hbm, ⟨11, _⟩ => ⟨S512x512, .f32⟩
  | .hbm, ⟨12, _⟩ => ⟨S16x64x512, .f32⟩
  | .hbm, ⟨13, _⟩ => ⟨S16x64x1x512, .f32⟩
  | .hbm, ⟨14, _⟩ => ⟨S16x1x64x512, .f32⟩
  | .hbm, ⟨15, _⟩ => ⟨S16x64x64x512, .f32⟩
  | .hbm, ⟨16, _⟩ => ⟨S16x64x64x512, .f32⟩
  | .hbm, ⟨17, _⟩ => ⟨S16x64x64x512, .f32⟩
  | .hbm, ⟨18, _⟩ => ⟨S1x1x1x512, .f32⟩
  | .hbm, ⟨19, _⟩ => ⟨S16x64x64x512, .f32⟩
  | .hbm, ⟨20, _⟩ => ⟨S16x64x64x512, .f32⟩
  | .hbm, ⟨21, _⟩ => ⟨S_, .f32⟩
  | .hbm, ⟨22, _⟩ => ⟨S16x64x64x512, .f32⟩
  | .hbm, ⟨23, _⟩ => ⟨S16x64x64x512, .i1⟩
  | .hbm, ⟨24, _⟩ => ⟨S_, .f32⟩
  | .hbm, ⟨25, _⟩ => ⟨S16x64x64x512, .f32⟩
  | .hbm, ⟨26, _⟩ => ⟨S16x64x64x512, .f32⟩
  | .hbm, ⟨27, _⟩ => ⟨S16x64x64x512, .f32⟩
  | .hbm, ⟨28, _⟩ => ⟨S16x64x64x512, .f32⟩
  | .hbm, ⟨29, _⟩ => ⟨S1x1x1x512, .f32⟩
  | .hbm, ⟨30, _⟩ => ⟨S16x64x64x512, .f32⟩
  | .hbm, ⟨31, _⟩ => ⟨S16x64x64x512, .f32⟩
  | .hbm, ⟨32, _⟩ => ⟨S_, .f32⟩
  | .hbm, ⟨33, _⟩ => ⟨S16x64x64x512, .f32⟩
  | .hbm, ⟨34, _⟩ => ⟨S16x64x64x512, .i1⟩
  | .hbm, ⟨35, _⟩ => ⟨S_, .f32⟩
  | .hbm, ⟨36, _⟩ => ⟨S16x64x64x512, .f32⟩
  | .hbm, ⟨37, _⟩ => ⟨S16x64x64x512, .f32⟩
  | .hbm, ⟨38, _⟩ => ⟨S16x64x64x512, .f32⟩
  | .hbm, ⟨39, _⟩ => ⟨S_, .f32⟩
  | .hbm, ⟨40, _⟩ => ⟨S16x64x512, .f32⟩
  | .hbm, ⟨41, _⟩ => ⟨S16x64x1024, .f32⟩
  | .hbm, ⟨42, _⟩ => ⟨S1024x1024, .f32⟩
  | .hbm, ⟨43, _⟩ => ⟨S1024x512, .f32⟩
  | .hbm, ⟨44, _⟩ => ⟨S1x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S_, .i32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S1024x512, .f32⟩
  | .hbm, ⟨77, _⟩ => ⟨S1024x512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S1x512, .f32⟩
  | .hbm, ⟨83, _⟩ => ⟨S1024x512, .f32⟩
  | .hbm, ⟨84, _⟩ => ⟨S1024x512, .f32⟩
  | .hbm, ⟨85, _⟩ => ⟨S1x512, .f32⟩
  | .hbm, ⟨86, _⟩ => ⟨S1024x512, .f32⟩
  | .hbm, ⟨87, _⟩ => ⟨S1024x512, .f32⟩
  | .hbm, ⟨88, _⟩ => ⟨S1x512, .f32⟩
  | .hbm, ⟨89, _⟩ => ⟨S1024x512, .f32⟩
  | .hbm, ⟨90, _⟩ => ⟨S1024x512, .f32⟩
  | .hbm, ⟨91, _⟩ => ⟨S_, .f32⟩
  | .hbm, ⟨92, _⟩ => ⟨S1024x512, .f32⟩
  | .hbm, ⟨93, _⟩ => ⟨S1024x512, .i1⟩
  | .hbm, ⟨94, _⟩ => ⟨S_, .f32⟩
  | .hbm, ⟨95, _⟩ => ⟨S1024x512, .f32⟩
  | .hbm, ⟨96, _⟩ => ⟨S1024x512, .f32⟩
  | .hbm, ⟨97, _⟩ => ⟨S1024x512, .f32⟩
  | .hbm, ⟨98, _⟩ => ⟨S16x64x512, .f32⟩
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_cst_2 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_cst_3 : Ref sig .tc := ⟨.hbm, 69, rfl⟩
abbrev main_call2_v12 : Ref sig .tc := ⟨.hbm, 70, rfl⟩
abbrev main_call2_cst_4 : Ref sig .tc := ⟨.hbm, 71, rfl⟩
abbrev main_call2_call0_v0 : Ref sig .tc := ⟨.hbm, 72, rfl⟩
abbrev main_call2_call0_v1 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_7 : Ref sig .tc := ⟨.hbm, 91, rfl⟩
abbrev main_v52 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S16x64x512_S16x64x1x512_0_1_3 : S16x64x512.BroadcastsInDim S16x64x1x512 (![0, 1, 3] : Fin 3 → Fin S16x64x1x512.rank)
  bcast_S16x64x512_S16x1x64x512_0_2_3 : S16x64x512.BroadcastsInDim S16x1x64x512 (![0, 2, 3] : Fin 3 → Fin S16x1x64x512.rank)
  bcast_S16x64x1x512_S16x64x64x512_0_1_2_3 : S16x64x1x512.BroadcastsInDim S16x64x64x512 (![0, 1, 2, 3] : Fin 4 → Fin S16x64x64x512.rank)
  bcast_S16x1x64x512_S16x64x64x512_0_1_2_3 : S16x1x64x512.BroadcastsInDim S16x64x64x512 (![0, 1, 2, 3] : Fin 4 → Fin S16x64x64x512.rank)
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  bcast_S_S16x64x64x512 : S_.BroadcastsInDim S16x64x64x512 (![] : Fin 0 → Fin S16x64x64x512.rank)
  reducesTo_S16x64x64x512_S16x64x512_d2 : S16x64x64x512.ReducesTo [2] S16x64x512
  h_S_ : 0 < S_.numel
  concatenates_S16x64x512_S16x64x512_S16x64x1024_d2 : Shape.Concatenates [S16x64x512, S16x64x512] S16x64x1024 2
  shapeCasts_S16x64x1024_S1024x1024 : S16x64x1024.ShapeCasts S1024x1024
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  reducesTo_S1024x512_S512_d0 : S1024x512.ReducesTo [0] S512
  bcast_S_S512 : S_.BroadcastsInDim S512 (![] : Fin 0 → Fin S512.rank)
  bcast_S_S1x512 : S_.BroadcastsInDim S1x512 (![] : Fin 0 → Fin S1x512.rank)
  bcast_S_S1024x512 : S_.BroadcastsInDim S1024x512 (![] : Fin 0 → Fin S1024x512.rank)
  shapeCasts_S1024x512_S16x64x512 : S1024x512.ShapeCasts S16x64x512
  dot_S16x64x512_S512x512_S16x64x512_2_0_01_1_n_n_wf : DotDims.WF S16x64x512 S512x512 S16x64x512 [2] [0] [0, 1] [1] [] []
  dot_S16x64x64x512_S512x512_S16x64x64x512_3_0_012_1_n_n_wf : DotDims.WF S16x64x64x512 S512x512 S16x64x64x512 [3] [0] [0, 1, 2] [1] [] []
  dot_S1024x1024_S1024x512_S1024x512_1_0_0_1_n_n_wf : DotDims.WF S1024x1024 S1024x512 S1024x512 [1] [0] [0] [1] [] []

variable [Facts₀]

def dot_S16x64x512_S512x512_S16x64x512_2_0_01_1_n_n : DotDims S16x64x512 S512x512 S16x64x512 where
  lhsContracting := [2]
  rhsContracting := [0]
  lhsNonContracting := [0, 1]
  rhsNonContracting := [1]
  lhsBatch := []
  rhsBatch := []
  wf := dot_S16x64x512_S512x512_S16x64x512_2_0_01_1_n_n_wf
def dot_S16x64x64x512_S512x512_S16x64x64x512_3_0_012_1_n_n : DotDims S16x64x64x512 S512x512 S16x64x64x512 where
  lhsContracting := [3]
  rhsContracting := [0]
  lhsNonContracting := [0, 1, 2]
  rhsNonContracting := [1]
  lhsBatch := []
  rhsBatch := []
  wf := dot_S16x64x64x512_S512x512_S16x64x64x512_3_0_012_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

class Facts : Prop extends Facts₀ where

variable [Facts]
-- ==== Proof.Spec.lean ====
/-
  The common value of the two programs, index by index, on the extended reals.

  A batch of 16 graphs, each of 64 nodes with 512 features `X[b, i, ·]`. For every ordered pair of nodes
  (i, j) of one graph the relation network forms `h1 = leaky (X_i · W1a + X_j · W1b + b1)` and
  `h2 = leaky (h1 · W2 + b2)`; node i's message is the sum of `h2` over j; the pre-normalization feature
  is `X_i · Wfa + msg_i · Wfb + bf`. The 16 · 64 = 1024 rows are then normalized per feature with the
  biased batch statistics (mean and mean of squared deviations over the 1024 rows, both quotients by the
  literal 1024), scaled, shifted, and passed through the leaky unit once more.
  `leaky x` is `x` where `0 ≤ x` and `slope · x` elsewhere, with `slope` the f32 literal 0.2: both programs
  spell it as a select on a comparison, and it is kept in that form, so no property of the literal is used.
  Every sum is a finite sum in the commutative monoid of extended reals; nothing here needs finiteness.
-/
import Idealize.ShloMosaic.PureOps.Ideal
import Idealize.ShloMosaic.Lib.ValueIdx

noncomputable section

open scoped BigOperators

namespace Cert.Spec

open Idealize.ShloMosaic Idealize.ShloMosaic.ValueIdx

/-- [16, 64, 512]: graphs × nodes × features. -/
abbrev T3 : Shape := ⟨3, ![16, 64, 512]⟩
/-- [1024, 512]: all rows × features. -/
abbrev TR : Shape := ⟨2, ![1024, 512]⟩
/-- [512, 512]: a weight matrix, input feature × output feature. -/
abbrev TQ : Shape := ⟨2, ![512, 512]⟩
/-- [512]: a bias, or a scale. -/
abbrev TV : Shape := ⟨1, ![512]⟩

/-- Row `b · 64 + i` of the flattened batch is node `i` of graph `b`. -/
def row (b : Fin 16) (i : Fin 64) : Fin 1024 := ⟨b.val * 64 + i.val, by omega⟩
/-- The graph a row belongs to. -/
def rdiv (r : Fin 1024) : Fin 16 := ⟨r.val / 64, by omega⟩
/-- The node a row is, inside its graph. -/
def rmod (r : Fin 1024) : Fin 64 := ⟨r.val % 64, by omega⟩

/-- The leaky unit, as both programs spell it: a select between `x` and `slope · x` on `0 ≤ x`. -/
def lk (x : EReal) : EReal :=
  Scalar.select (Ideal.cmp .oge x (Ideal.ofBits .f32 0x00000000#32)) x (Ideal.ofBits .f32 0x3E4CCCCD#32 * x)

section Relation

variable (X : T3.Idx → EReal) (W1a W1b : TQ.Idx → EReal) (b1 : TV.Idx → EReal) (W2 : TQ.Idx → EReal)
  (b2 : TV.Idx → EReal) (Wfa Wfb : TQ.Idx → EReal) (bf : TV.Idx → EReal)

/-- Node `i` of graph `b` through a weight matrix: `∑ c, X[b, i, c] · W[c, d]`. -/
def proj (W : TQ.Idx → EReal) (b : Fin 16) (i : Fin 64) (d : Fin 512) : EReal :=
  ∑ c : Fin 512, X (ix3 b i c) * W (ix2 c d)

/-- The first relation layer on the pair (i, j). -/
def h1 (b : Fin 16) (i j : Fin 64) (c : Fin 512) : EReal :=
  lk ((proj X W1a b i c + proj X W1b b j c) + b1 (ix1 c))

/-- The second relation layer on the pair (i, j). -/
def h2 (b : Fin 16) (i j : Fin 64) (d : Fin 512) : EReal :=
  lk ((∑ c : Fin 512, h1 X W1a W1b b1 b i j c * W2 (ix2 c d)) + b2 (ix1 d))

/-- Node `i`'s message: the pair features summed over the partner `j`. -/
def msg (b : Fin 16) (i : Fin 64) (d : Fin 512) : EReal :=
  ∑ j : Fin 64, h2 X W1a W1b b1 W2 b2 b i j d

/-- The fused linear layer on `[X_i, msg_i]`, before normalization. -/
def ypre (b : Fin 16) (i : Fin 64) (d : Fin 512) : EReal :=
  (proj X Wfa b i d + ∑ c : Fin 512, msg X W1a W1b b1 W2 b2 b i c * Wfb (ix2 c d)) + bf (ix1 d)

end Relation

section Norm

variable (y : Fin 1024 → Fin 512 → EReal) (g β : TV.Idx → EReal)

/-- The per-feature mean over the 1024 rows (a quotient by the literal 1024). -/
def mean (d : Fin 512) : EReal :=
  Ideal.div (∑ r : Fin 1024, y r d) (Ideal.ofBits .f32 0x44800000#32)

/-- The per-feature biased variance over the 1024 rows. -/
def var (d : Fin 512) : EReal :=
  Ideal.div (∑ r : Fin 1024, (y r d - mean y d) * (y r d - mean y d)) (Ideal.ofBits .f32 0x44800000#32)

/-- Normalize, scale, shift, leaky. -/
def bn (r : Fin 1024) (d : Fin 512) : EReal :=
  lk ((((y r d - mean y d) * Ideal.rsqrt (var y d + Ideal.ofBits .f32 0x3727C5AC#32)) * g (ix1 d)) + β (ix1 d))

end Norm

/-- The whole function: the result at graph `b`, node `i`, feature `d`. -/
def out (X : T3.Idx → EReal) (W1a W1b : TQ.Idx → EReal) (b1 : TV.Idx → EReal) (W2 : TQ.Idx → EReal)
    (b2 : TV.Idx → EReal) (Wfa Wfb : TQ.Idx → EReal) (bf g β : TV.Idx → EReal) (b : Fin 16) (i : Fin 64) (d : Fin 512) : EReal :=
  bn (fun r d => ypre X W1a W1b b1 W2 b2 Wfa Wfb bf (rdiv r) (rmod r) d) g β (row b i) d

theorem rdiv_row (b : Fin 16) (i : Fin 64) : rdiv (row b i) = b :=
  Fin.ext (by show (b.val * 64 + i.val) / 64 = b.val; omega)
theorem rmod_row (b : Fin 16) (i : Fin 64) : rmod (row b i) = i :=
  Fin.ext (by show (b.val * 64 + i.val) % 64 = i.val; omega)
theorem row_div_mod (r : Fin 1024) : row (rdiv r) (rmod r) = r :=
  Fin.ext (by show r.val / 64 * 64 + r.val % 64 = r.val; omega)

end Cert.Spec

end
-- ==== Proof.KVal0.lean ====
/- The relation kernel's output array after its 16 grid points, read at a graph, a node and a feature. -/
import proofs.«415910_j38972533243937_3_alg».proof.Proof.Gen.KernelIdeal.Frame
import proofs.«415910_j38972533243937_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KVal0

open Idealize.ShloMosaic Idealize.ShloMosaic.TcCoe Idealize.ShloMosaic.ValueIdx Idealize.SL.Sem Cert.KernelIdeal Cert.KernelIdeal.Gen
open Cert.KernelIdeal.Facts₀

/-! ## Layout operations at coordinates -/

section Layout
variable {α : Type}

/-- A `[64, 512]` array cast to `[64, 1, 512]` reads, at `(i, u, d)`, the operand at `(i, d)`. -/
theorem cast_ac_a1c (x : S64x512.Idx → α) (h : S64x512.ShapeCasts S64x1x512) (i : Fin 64) (u : Fin 1) (d : Fin 512) :
    shapeCast S64x1x512 x h (ix3 i u d) = x (ix2 i d) :=
  shapeCast_apply x h _ _ (by
    have hu : u.val = 0 := by omega
    rw [Shape.rowMajor_val_three, Shape.rowMajor_val_two]
    show i.val * 512 + d.val = (i.val * 1 + u.val) * 512 + d.val
    rw [hu, Nat.mul_one, Nat.add_zero])

/-- A `[512]` array cast to `[1, 1, 512]` reads, at `(u, v, d)`, the operand at `d`. -/
theorem cast_c_11c (x : S512.Idx → α) (h : S512.ShapeCasts S1x1x512) (u v : Fin 1) (d : Fin 512) :
    shapeCast S1x1x512 x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * 512 + d.val
    rw [hu, hv]; omega)

/-- The pair row `i · 64 + j` of the flattened `[4096, 512]` array. -/
def prow (i j : Fin 64) : Fin 4096 := ⟨i.val * 64 + j.val, by omega⟩

/-- A `[64, 64, 512]` array cast to `[4096, 512]` reads, at `(i · 64 + j, d)`, the operand at `(i, j, d)`. -/
theorem cast_abc_rc (x : S64x64x512.Idx → α) (h : S64x64x512.ShapeCasts S4096x512) (i j : Fin 64) (d : Fin 512) :
    shapeCast S4096x512 x h (ix2 (prow i j) d) = x (ix3 i j d) :=
  shapeCast_apply x h _ _ (by
    rw [Shape.rowMajor_val_three, Shape.rowMajor_val_two]
    rfl)

/-- A `[4096, 512]` array cast to `[64, 64, 512]` reads, at `(i, j, d)`, the operand at `(i · 64 + j, d)`. -/
theorem cast_rc_abc (x : S4096x512.Idx → α) (h : S4096x512.ShapeCasts S64x64x512) (i j : Fin 64) (d : Fin 512) :
    shapeCast S64x64x512 x h (ix3 i j d) = x (ix2 (prow i j) d) :=
  shapeCast_apply x h _ _ (by
    rw [Shape.rowMajor_val_three, Shape.rowMajor_val_two]
    rfl)

/-- A `[64, 1, 512]` array broadcast to `[64, 64, 512]` reads, at `(i, j, d)`, the operand at `(i, 0, d)`. -/
theorem bc_a1c (v : S64x1x512.Idx → α) (h : S64x1x512.Broadcasts S64x64x512) (i j : Fin 64) (d : Fin 512) :
    broadcastTo S64x64x512 v h (ix3 i j d) = v (ix3 i (0 : Fin 1) d) := by
  refine broadcastTo_apply v h (ix3 i j d) (ix3 i (0 : Fin 1) d) fun ax => ?_
  match ax with
  | ⟨0, _⟩ => rfl
  | ⟨1, _⟩ => rfl
  | ⟨2, _⟩ => rfl

/-- A `[1, 64, 512]` array broadcast to `[64, 64, 512]` reads, at `(i, j, d)`, the operand at `(0, j, d)`. -/
theorem bc_1bc (v : S1x64x512.Idx → α) (h : S1x64x512.Broadcasts S64x64x512) (i j : Fin 64) (d : Fin 512) :
    broadcastTo S64x64x512 v h (ix3 i j d) = v (ix3 (0 : Fin 1) j d) := by
  refine broadcastTo_apply v h (ix3 i j d) (ix3 (0 : Fin 1) j d) fun ax => ?_
  match ax with
  | ⟨0, _⟩ => rfl
  | ⟨1, _⟩ => rfl
  | ⟨2, _⟩ => rfl

/-- A `[1, 1, 512]` array broadcast to `[64, 64, 512]` reads, at `(i, j, d)`, the operand at `(0, 0, d)`. -/
theorem bc_11c (v : S1x1x512.Idx → α) (h : S1x1x512.Broadcasts S64x64x512) (i j : Fin 64) (d : Fin 512) :
    broadcastTo S64x64x512 v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ => rfl

end Layout

/-! ## A matrix product at an entry -/

/-- An `[m, k]` by `[k, n]` product into the zero accumulator reads, at `(a, b)`, the sum over the contracted
    coordinate of the products of the entries. -/
theorem mm_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The `[64, 512]` by `[512, 512]` product of the kernel at an entry. -/
theorem mm64_apply {φ₁ φ₂ : FTy} (A : FVec Ideal S64x512 φ₁) (B : FVec Ideal S512x512 φ₂) (i : Fin 64) (d : Fin 512) :
    matmul dot_S64x512_S512x512_S64x512_1_0_0_1_n_n none A B (constant (F := Ideal) S64x512 .f32 0x00000000#32) (ix2 i d)
      = ∑ c : Fin 512, A (ix2 i c) * B (ix2 c d) :=
  mm_apply Gen.dot_S64x512_S512x512_S64x512_1_0_0_1_n_n_wf A B i d

/-- The `[4096, 512]` by `[512, 512]` product of the kernel at an entry. -/
theorem mm4096_apply {φ₁ φ₂ : FTy} (A : FVec Ideal S4096x512 φ₁) (B : FVec Ideal S512x512 φ₂) (r : Fin 4096) (d : Fin 512) :
    matmul dot_S4096x512_S512x512_S4096x512_1_0_0_1_n_n none A B (constant (F := Ideal) S4096x512 .f32 0x00000000#32) (ix2 r d)
      = ∑ c : Fin 512, A (ix2 r c) * B (ix2 c d) :=
  mm_apply Gen.dot_S4096x512_S512x512_S4096x512_1_0_0_1_n_n_wf A B r d

/-! ## The kernel's payloads at an index -/

/-- The leaky unit on every pair of nodes, as the kernel spells it against a zero word `z`. -/
def leaky (z : Ideal .f32) (v : FVec Ideal S64x64x512 .f32) : FVec Ideal S64x64x512 .f32 :=
  select (cmpf .oge v (broadcast S64x64x512 z)) v (mulf (broadcast S64x64x512 (Scalar.ofBits .f32 0x3E4CCCCD#32)) v)

theorem leaky_apply (v : FVec Ideal S64x64x512 .f32) (y : S64x64x512.Idx) :
    leaky (Scalar.ofBits .f32 0x00000000#32) v y = Cert.Spec.lk (v y) := rfl

/-- The sum over the partner node of the leaky unit of the pair features. -/
def msum (v : FVec Ideal S64x64x512 .f32) : FVec Ideal S64x512 .f32 :=
  multiReduction (F := Ideal) .add [1] S64x512 (leaky (Scalar.ofBits .f32 0x00000000#32) v) 0x00000000#32
    Gen.reduces_S64x64x512_S64x512 (.inl rfl) rfl

theorem msum_apply (v : FVec Ideal S64x64x512 .f32) (i : Fin 64) (c : Fin 512) :
    msum v (ix2 i c) = ∑ j : Fin 64, Cert.Spec.lk (v (ix3 i j c)) := by
  unfold msum
  refine (Ideal.multiReduction_add_single (leaky (Scalar.ofBits .f32 0x00000000#32) v) 0x00000000#32
    Gen.reduces_S64x64x512_S64x512 (.inl rfl) rfl (ix2 i c)).trans ?_
  refine Finset.sum_congr rfl fun j _ => ?_
  refine (leaky_apply v _).trans (congrArg (fun y => Cert.Spec.lk (v y)) ?_)
  funext a
  apply Fin.ext
  match a with
  | ⟨0, _⟩ => rfl
  | ⟨1, _⟩ => rfl
  | ⟨2, _⟩ => rfl

section Payload
variable (x0 : Vec Ideal S1x64x512 .f32) (x1 x2 x6 x7 : Vec Ideal S512x512 .f32) (x4 : Vec Ideal S512x512 .bf16)
  (x3 x5 x8 : Vec Ideal S512 .f32)

/-- One graph's block with its unit axis dropped. -/
theorem pay2_apply (i : Fin 64) (c : Fin 512) : k0_pay2 x0 (ix2 i c) = x0 (ix3 (0 : Fin 1) i c) :=
  shapeCast_1ab_ab_apply x0 Gen.shapeCasts_S1x64x512_S64x512 i c

theorem pay3_eq : k0_pay3 x6 = x6 := shapeCast_self x6 Gen.shapeCasts_S512x512_S512x512
theorem pay4_eq : k0_pay4 x7 = x7 := shapeCast_self x7 Gen.shapeCasts_S512x512_S512x512

/-- The first relation layer before its leaky unit, on every pair of nodes. -/
def pre1 : FVec Ideal S64x64x512 .f32 :=
  addf
    (addf
      (broadcastTo S64x64x512
        (shapeCast S64x1x512
          (matmul dot_S64x512_S512x512_S64x512_1_0_0_1_n_n none (k0_pay2 x0)
            (shapeCast S512x512 x1 Gen.shapeCasts_S512x512_S512x512 : FVec Ideal S512x512 .f32) (constant S64x512 .f32 0x00000000#32))
          Gen.shapeCasts_S64x512_S64x1x512)
        Gen.broadcasts_S64x1x512_S64x64x512)
      (broadcastTo S64x64x512
        (shapeCast S1x64x512
          (matmul dot_S64x512_S512x512_S64x512_1_0_0_1_n_n none (k0_pay2 x0)
            (shapeCast S512x512 x2 Gen.shapeCasts_S512x512_S512x512 : FVec Ideal S512x512 .f32) (constant S64x512 .f32 0x00000000#32))
          Gen.shapeCasts_S64x512_S1x64x512)
        Gen.broadcasts_S1x64x512_S64x64x512))
    (broadcastTo S64x64x512 (shapeCast S1x1x512 x3 Gen.shapeCasts_S512_S1x1x512) Gen.broadcasts_S1x1x512_S64x64x512)

theorem pre1_apply (i j : Fin 64) (c : Fin 512) :
    pre1 x0 x1 x2 x3 (ix3 i j c)
      = ((∑ c' : Fin 512, x0 (ix3 (0 : Fin 1) i c') * x1 (ix2 c' c))
          + ∑ c' : Fin 512, x0 (ix3 (0 : Fin 1) j c') * x2 (ix2 c' c)) + x3 (ix1 c) := by
  unfold pre1
  rw [addf_apply, addf_apply, bc_a1c, bc_1bc, bc_11c, cast_ac_a1c, shapeCast_ab_1ab_apply, cast_c_11c, mm64_apply, mm64_apply]
  simp only [pay2_apply, shapeCast_self]

/-- The second relation layer before its leaky unit, from the first layer's features `h`. -/
def lay2 (h : FVec Ideal S64x64x512 .f32) : FVec Ideal S64x64x512 .f32 :=
  addf
    (shapeCast S64x64x512
      (matmul dot_S4096x512_S512x512_S4096x512_1_0_0_1_n_n none
        (shapeCast S4096x512 (truncf .bf16 h Gen.bitsLt_bf16_f32) Gen.shapeCasts_S64x64x512_S4096x512)
        (shapeCast S512x512 x4 Gen.shapeCasts_S512x512_S512x512 : FVec Ideal S512x512 .bf16) (constant S4096x512 .f32 0x00000000#32))
      Gen.shapeCasts_S4096x512_S64x64x512)
    (broadcastTo S64x64x512 (shapeCast S1x1x512 x5 Gen.shapeCasts_S512_S1x1x512) Gen.broadcasts_S1x1x512_S64x64x512)

theorem lay2_apply (h : FVec Ideal S64x64x512 .f32) (i j : Fin 64) (d : Fin 512) :
    lay2 x4 x5 h (ix3 i j d) = (∑ c : Fin 512, h (ix3 i j c) * x4 (ix2 c d)) + x5 (ix1 d) := by
  unfold lay2
  rw [addf_apply, cast_rc_abc, mm4096_apply, bc_11c, cast_c_11c]
  simp only [cast_abc_rc, shapeCast_self, truncf_apply]

/-- The pair features before the second leaky unit are the two layers composed. -/
theorem pay5_eq : k0_pay5 x0 x1 x2 x3 x4 x5
    = lay2 x4 x5 (leaky (Scalar.ofBits .f32 0x00000000#32) (pre1 x0 x1 x2 x3)) := rfl

theorem pay5_apply (i j : Fin 64) (d : Fin 512) :
    k0_pay5 x0 x1 x2 x3 x4 x5 (ix3 i j d)
      = (∑ c : Fin 512, Cert.Spec.lk (((∑ c' : Fin 512, x0 (ix3 (0 : Fin 1) i c') * x1 (ix2 c' c))
          + ∑ c' : Fin 512, x0 (ix3 (0 : Fin 1) j c') * x2 (ix2 c' c)) + x3 (ix1 c)) * x4 (ix2 c d)) + x5 (ix1 d) := by
  rw [pay5_eq, lay2_apply]
  simp only [leaky_apply, pre1_apply]

end Payload

/-- The stored block from the values it reads: the fused linear layer on a node's features and its message. -/
theorem pay1_eq (v1 : FVec Ideal S64x512 .f32) (v11 v13 : FVec Ideal S512x512 .f32) (v14 : Vec Ideal S512 .f32)
    (v36 : FVec Ideal S64x64x512 .f32) :
    k0_pay1 v1 v11 v13 v14 v36 (Scalar.ofBits .f32 0x00000000#32)
      = shapeCast S1x64x512
          (addf
            (addf
              (matmul dot_S64x512_S512x512_S64x512_1_0_0_1_n_n none v1 v11 (constant S64x512 .f32 0x00000000#32))
              (matmul dot_S64x512_S512x512_S64x512_1_0_0_1_n_n none (msum v36) v13 (constant S64x512 .f32 0x00000000#32)))
            (broadcastTo S64x512 (shapeCast S1x512 v14 Gen.shapeCasts_S512_S1x512) Gen.broadcasts_S1x512_S64x512))
          Gen.shapeCasts_S64x512_S1x64x512 := rfl

theorem pay1_apply (v1 : FVec Ideal S64x512 .f32) (v11 v13 : FVec Ideal S512x512 .f32) (v14 : Vec Ideal S512 .f32)
    (v36 : FVec Ideal S64x64x512 .f32) (u : Fin 1) (i : Fin 64) (d : Fin 512) :
    k0_pay1 v1 v11 v13 v14 v36 (Scalar.ofBits .f32 0x00000000#32) (ix3 u i d)
      = ((∑ c : Fin 512, v1 (ix2 i c) * v11 (ix2 c d))
          + ∑ c : Fin 512, (∑ j : Fin 64, Cert.Spec.lk (v36 (ix3 i j c))) * v13 (ix2 c d)) + v14 (ix1 d) := by
  rw [pay1_eq, shapeCast_ab_1ab_apply]
  rw [addf_apply, addf_apply, mm64_apply, mm64_apply, broadcastTo_1b_ab_apply, shapeCast_a_1a_apply]
  simp only [msum_apply]

/-! ## The stored block is the specification's block -/

/-- The block a point stores, read at an index `y`, is the specification's pre-normalization feature of graph `b`,
    when the point's first block is graph `b`'s rows of `X` and its other blocks are the whole weight arrays. -/
theorem block_eq (x0 : Vec Ideal S1x64x512 .f32) (x1 x2 x6 x7 : Vec Ideal S512x512 .f32) (x4 : Vec Ideal S512x512 .bf16)
    (x3 x5 x8 : Vec Ideal S512 .f32)
    (X : S16x64x512.Idx → EReal) (W1a W1b : S512x512.Idx → EReal) (b1 : S512.Idx → EReal) (W2 : S512x512.Idx → EReal)
    (b2 : S512.Idx → EReal) (Wfa Wfb : S512x512.Idx → EReal) (bf : S512.Idx → EReal)
    (y : S1x64x512.Idx) (b : Fin 16) (i : Fin 64) (d : Fin 512)
    (hX : ∀ (i : Fin 64) (c : Fin 512), x0 (ix3 (0 : Fin 1) i c) = X (ix3 b i c))
    (h1 : x1 = W1a) (h2 : x2 = W1b) (h3 : x3 = b1) (h4 : x4 = W2) (h5 : x5 = b2) (h6 : x6 = Wfa) (h7 : x7 = Wfb)
    (h8 : x8 = bf) (hi : (y 1).val = i.val) (hd : (y 2).val = d.val) :
    k0_pay1 (k0_pay2 x0) (k0_pay3 x6) (k0_pay4 x7) x8 (k0_pay5 x0 x1 x2 x3 x4 x5) (Scalar.ofBits .f32 0x00000000#32) y
      = Cert.Spec.ypre X W1a W1b b1 W2 b2 Wfa Wfb bf b i d := by
  subst h1 h2 h3 h4 h5 h6 h7 h8
  obtain ⟨u, i', d', rfl⟩ : ∃ (u : Fin 1) (i' : Fin 64) (d' : Fin 512), y = ix3 u i' d' := ⟨y 0, y 1, y 2, eq_ix3 y⟩
  obtain rfl : i' = i := Fin.ext hi
  obtain rfl : d' = d := Fin.ext hd
  rw [pay1_apply, pay3_eq, pay4_eq]
  simp only [pay2_apply, pay5_apply, hX]
  rfl

/-- The same at a block index given by its coordinates, the weight blocks being the arrays themselves. -/
theorem pay_block (x0 : Vec Ideal S1x64x512 .f32) (x1 x2 : Vec Ideal S512x512 .f32) (x3 : Vec Ideal S512 .f32) (x4 : Vec Ideal S512x512 .bf16) (x5 : Vec Ideal S512 .f32) (x6 x7 : Vec Ideal S512x512 .f32) (x8 : Vec Ideal S512 .f32)
    (X : S16x64x512.Idx → EReal) (b : Fin 16) (hx : ∀ (i : Fin 64) (c : Fin 512), x0 (ix3 (0 : Fin 1) i c) = X (ix3 b i c)) (u : Fin 1) (i : Fin 64) (d : Fin 512) :
    k0_pay1 (F := Ideal) (k0_pay2 x0) (k0_pay3 x6) (k0_pay4 x7) x8 (k0_pay5 x0 x1 x2 x3 x4 x5) (Scalar.ofBits .f32 0x00000000#32) (ix3 u i d)
      = Cert.Spec.ypre X x1 x2 x3 x4 x5 x6 x7 x8 b i d :=
  block_eq x0 x1 x2 x6 x7 x4 x3 x5 x8 X x1 x2 x3 x4 x5 x6 x7 x8 (ix3 u i d) b i d hx rfl rfl rfl rfl rfl rfl rfl rfl rfl rfl

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block index maps, decided over the 16 points: the graph windows sit at block (t, 0, 0), the weight windows
    at block zero. -/
theorem idx_facts : ∀ t : Fin cfg0.N,
    (win0_0.index t (0 : Fin 3) = t.val ∧ win0_0.index t (1 : Fin 3) = 0 ∧ win0_0.index t (2 : Fin 3) = 0)
    ∧ (win0_9.index t (0 : Fin 3) = t.val ∧ win0_9.index t (1 : Fin 3) = 0 ∧ win0_9.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_3.index t (0 : Fin 1) = 0 ∧ win0_5.index t (0 : Fin 1) = 0 ∧ win0_8.index t (0 : Fin 1) = 0 :=
  (by decide +kernel : ∀ t : Fin grid0.N, _)

section Array
variable (V : (c : Dev nD) → (b : Ref sig .tc) → Buf (Elt Ideal) ((c : Thread nD τ).loc b)) (c : Dev nD)

/-- The whole output array as one function of the arrays the region finds. -/
def G : S16x64x512.Idx → EReal := fun k =>
  Cert.Spec.ypre (V c main_arg0) (V c main_v0) (V c main_v1) (V c main_arg2) (V c main_v4) (V c main_arg4)
    (V c main_v2) (V c main_v3) (V c main_arg6) (k 0) (k 1) (k 2)

theorem G_apply (k : S16x64x512.Idx) (b : Fin 16) (i : Fin 64) (d : Fin 512)
    (h0 : (k 0).val = b.val) (h1 : (k 1).val = i.val) (h2 : (k 2).val = d.val) :
    G V c k = Cert.Spec.ypre (V c main_arg0) (V c main_v0) (V c main_v1) (V c main_arg2) (V c main_v4) (V c main_arg4)
      (V c main_v2) (V c main_v3) (V c main_arg6) b i d := by
  obtain rfl : k = ix3 b i d := funext fun a => Fin.ext (match a with | ⟨0, _⟩ => h0 | ⟨1, _⟩ => h1 | ⟨2, _⟩ => h2)
  rfl

/-- A `[512, 512]` weight window's block is the whole array at every point. -/
theorem iblk1_eq (t : Fin cfg0.N) : (iblk0 V c 1 t : Vec Ideal S512x512 .f32) = V c main_v0 := by
  obtain ⟨-, -, ⟨e0, e1⟩, -⟩ := idx_facts t
  funext k
  show V c main_v0 (((cfg0.win 1).blk t).view.emb k) = V c main_v0 k
  congr 1
  funext a; apply Fin.ext
  match a with
  | ⟨0, _⟩ => show win0_1.index t (0 : Fin 2) * 512 + 1 * (k 0).val = (k 0).val; omega
  | ⟨1, _⟩ => show win0_1.index t (1 : Fin 2) * 512 + 1 * (k 1).val = (k 1).val; omega

theorem iblk2_eq (t : Fin cfg0.N) : (iblk0 V c 2 t : Vec Ideal S512x512 .f32) = V c main_v1 := by
  obtain ⟨-, -, -, ⟨e0, e1⟩, -⟩ := idx_facts t
  funext k
  show V c main_v1 (((cfg0.win 2).blk t).view.emb k) = V c main_v1 k
  congr 1
  funext a; apply Fin.ext
  match a with
  | ⟨0, _⟩ => show win0_2.index t (0 : Fin 2) * 512 + 1 * (k 0).val = (k 0).val; omega
  | ⟨1, _⟩ => show win0_2.index t (1 : Fin 2) * 512 + 1 * (k 1).val = (k 1).val; omega

theorem iblk4_eq (t : Fin cfg0.N) : (iblk0 V c 4 t : Vec Ideal S512x512 .bf16) = V c main_v4 := by
  obtain ⟨-, -, -, -, ⟨e0, e1⟩, -⟩ := idx_facts t
  funext k
  show V c main_v4 (((cfg0.win 4).blk t).view.emb k) = V c main_v4 k
  congr 1
  funext a; apply Fin.ext
  match a with
  | ⟨0, _⟩ => show win0_4.index t (0 : Fin 2) * 512 + 1 * (k 0).val = (k 0).val; omega
  | ⟨1, _⟩ => show win0_4.index t (1 : Fin 2) * 512 + 1 * (k 1).val = (k 1).val; omega

theorem iblk6_eq (t : Fin cfg0.N) : (iblk0 V c 6 t : Vec Ideal S512x512 .f32) = V c main_v2 := by
  obtain ⟨-, -, -, -, -, ⟨e0, e1⟩, -⟩ := idx_facts t
  funext k
  show V c main_v2 (((cfg0.win 6).blk t).view.emb k) = V c main_v2 k
  congr 1
  funext a; apply Fin.ext
  match a with
  | ⟨0, _⟩ => show win0_6.index t (0 : Fin 2) * 512 + 1 * (k 0).val = (k 0).val; omega
  | ⟨1, _⟩ => show win0_6.index t (1 : Fin 2) * 512 + 1 * (k 1).val = (k 1).val; omega

theorem iblk7_eq (t : Fin cfg0.N) : (iblk0 V c 7 t : Vec Ideal S512x512 .f32) = V c main_v3 := by
  obtain ⟨-, -, -, -, -, -, ⟨e0, e1⟩, -⟩ := idx_facts t
  funext k
  show V c main_v3 (((cfg0.win 7).blk t).view.emb k) = V c main_v3 k
  congr 1
  funext a; apply Fin.ext
  match a with
  | ⟨0, _⟩ => show win0_7.index t (0 : Fin 2) * 512 + 1 * (k 0).val = (k 0).val; omega
  | ⟨1, _⟩ => show win0_7.index t (1 : Fin 2) * 512 + 1 * (k 1).val = (k 1).val; omega

/-- A `[512]` bias window's block is the whole array at every point. -/
theorem iblk3_eq (t : Fin cfg0.N) : (iblk0 V c 3 t : Vec Ideal S512 .f32) = V c main_arg2 := by
  obtain ⟨-, -, -, -, -, -, -, e0, -, -⟩ := idx_facts t
  funext k
  show V c main_arg2 (((cfg0.win 3).blk t).view.emb k) = V c main_arg2 k
  congr 1
  funext a; apply Fin.ext
  match a with
  | ⟨0, _⟩ => show win0_3.index t (0 : Fin 1) * 512 + 1 * (k 0).val = (k 0).val; omega

theorem iblk5_eq (t : Fin cfg0.N) : (iblk0 V c 5 t : Vec Ideal S512 .f32) = V c main_arg4 := by
  obtain ⟨-, -, -, -, -, -, -, -, e0, -⟩ := idx_facts t
  funext k
  show V c main_arg4 (((cfg0.win 5).blk t).view.emb k) = V c main_arg4 k
  congr 1
  funext a; apply Fin.ext
  match a with
  | ⟨0, _⟩ => show win0_5.index t (0 : Fin 1) * 512 + 1 * (k 0).val = (k 0).val; omega

theorem iblk8_eq (t : Fin cfg0.N) : (iblk0 V c 8 t : Vec Ideal S512 .f32) = V c main_arg6 := by
  obtain ⟨-, -, -, -, -, -, -, -, -, e0⟩ := idx_facts t
  funext k
  show V c main_arg6 (((cfg0.win 8).blk t).view.emb k) = V c main_arg6 k
  congr 1
  funext a; apply Fin.ext
  match a with
  | ⟨0, _⟩ => show win0_8.index t (0 : Fin 1) * 512 + 1 * (k 0).val = (k 0).val; omega

/-- The graph window's block at point `t` is graph `t`'s rows of the node features. -/
theorem iblk0_apply (t : Fin cfg0.N) (b : Fin 16) (hb : b.val = t.val) (i : Fin 64) (cc : Fin 512) :
    (iblk0 V c 0 t : Vec Ideal S1x64x512 .f32) (ix3 (0 : Fin 1) i cc) = (V c main_arg0 : S16x64x512.Idx → EReal) (ix3 b i cc) := by
  obtain ⟨⟨e0, e1, e2⟩, -⟩ := idx_facts t
  show V c main_arg0 (((cfg0.win 0).blk t).view.emb (ix3 (0 : Fin 1) i cc)) = V c main_arg0 (ix3 b i cc)
  congr 1
  funext a; apply Fin.ext
  match a with
  | ⟨0, _⟩ => show win0_0.index t (0 : Fin 3) * 1 + 1 * 0 = b.val; omega
  | ⟨1, _⟩ => show win0_0.index t (1 : Fin 3) * 64 + 1 * i.val = i.val; omega
  | ⟨2, _⟩ => show win0_0.index t (2 : Fin 3) * 512 + 1 * cc.val = cc.val; omega

/-- What point `t` writes back is block `t` of the whole-array function. -/
theorem flushed_eq (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz3]
  simp only [View.ld_unit_zero (S := S1x64x512) hz3, View.ld_unit_zero (S := S512x512) hz2, View.ld_unit_zero (S := S512) hz1]
  obtain ⟨-, ⟨e0, e1, e2⟩, -⟩ := idx_facts t
  have hN : cfg0.N = 16 := N_0
  have ht : t.val < 16 := by have := t.isLt; omega
  funext y
  have hy0 : (y 0).val < 1 := (y 0).isLt
  have hy1 : (y 1).val < 64 := (y 1).isLt
  have hy2 : (y 2).val < 512 := (y 2).isLt
  refine (block_eq (iblk0 V c 0 t) (iblk0 V c 1 t) (iblk0 V c 2 t) (iblk0 V c 6 t) (iblk0 V c 7 t) (iblk0 V c 4 t)
    (iblk0 V c 3 t) (iblk0 V c 5 t) (iblk0 V c 8 t)
    (V c main_arg0) (V c main_v0) (V c main_v1) (V c main_arg2) (V c main_v4) (V c main_arg4)
    (V c main_v2) (V c main_v3) (V c main_arg6) y ⟨t.val, ht⟩ ⟨(y 1).val, hy1⟩ ⟨(y 2).val, hy2⟩
    (fun i cc => iblk0_apply V c t ⟨t.val, ht⟩ rfl i cc)
    (iblk1_eq V c t) (iblk2_eq V c t) (iblk3_eq V c t) (iblk4_eq V c t) (iblk5_eq V c t) (iblk6_eq V c t)
    (iblk7_eq V c t) (iblk8_eq V c t) rfl rfl).trans ?_
  refine (G_apply V c (((cfg0.win 9).blk t).view.emb y) ⟨t.val, ht⟩ ⟨(y 1).val, hy1⟩ ⟨(y 2).val, hy2⟩ ?_ ?_ ?_).symm
  · show win0_9.index t (0 : Fin 3) * 1 + 1 * (y 0).val = t.val; omega
  · show win0_9.index t (1 : Fin 3) * 64 + 1 * (y 1).val = (y 1).val; omega
  · show win0_9.index t (2 : Fin 3) * 512 + 1 * (y 2).val = (y 2).val; omega

/-- An index of the array is in point `t`'s block iff each coordinate is in the block's range on its axis. -/
theorem mem_blk (t : Fin cfg0.N) (k : S16x64x512.Idx) :
    k ∈ ((cfg0.win 9).blk t).view.set ↔ ∀ a : Fin 3, win0_9.index t a * S1x64x512.size a ≤ (k a).val
      ∧ (k a).val < win0_9.index t a * S1x64x512.size a + S1x64x512.size a := by
  show k ∈ ((View.whole main_v5).slice (win0_9.rect t)).set ↔ _
  rw [View.set_slice_whole, Rect.mem_set_unit]
  exact Iff.rfl

/-- Graph `b`'s rows are in point `b`'s block. -/
theorem cover (k : S16x64x512.Idx) :
    ∃ t : Fin cfg0.N, (cfg0.win 9).flush t = true ∧ k ∈ ((cfg0.win 9).blk t).view.set := by
  have hN : cfg0.N = 16 := N_0
  have hk0 : (k 0).val < 16 := (k 0).isLt
  have hk1 : (k 1).val < 64 := (k 1).isLt
  have hk2 : (k 2).val < 512 := (k 2).isLt
  have ht : (k 0).val < cfg0.N := by omega
  obtain ⟨-, ⟨e0, e1, e2⟩, -⟩ := idx_facts ⟨(k 0).val, ht⟩
  have e0' : win0_9.index ⟨(k 0).val, ht⟩ (0 : Fin 3) = (k 0).val := e0
  refine ⟨⟨(k 0).val, ht⟩, flush0_9 _, ?_⟩
  rw [mem_blk]
  intro a
  match a with
  | ⟨0, _⟩ =>
    show win0_9.index ⟨(k 0).val, ht⟩ (0 : Fin 3) * 1 ≤ (k 0).val ∧ (k 0).val < win0_9.index ⟨(k 0).val, ht⟩ (0 : Fin 3) * 1 + 1
    rw [e0']; omega
  | ⟨1, _⟩ =>
    show win0_9.index ⟨(k 0).val, ht⟩ (1 : Fin 3) * 64 ≤ (k 1).val ∧ (k 1).val < win0_9.index ⟨(k 0).val, ht⟩ (1 : Fin 3) * 64 + 64
    rw [e1]; omega
  | ⟨2, _⟩ =>
    show win0_9.index ⟨(k 0).val, ht⟩ (2 : Fin 3) * 512 ≤ (k 2).val ∧ (k 2).val < win0_9.index ⟨(k 0).val, ht⟩ (2 : Fin 3) * 512 + 512
    rw [e2]; omega

/-- The output array after the 16 points is the whole-array function. -/
theorem final : (dat0 V c).arrAt 9 cfg0.N = G V c :=
  (dat0 V c).arrAt_eq_of_cover 9 (G V c) (fun t _ => flushed_eq V c t) (cover)

end Array

theorem arr9 (V : (c : Dev nD) → (b : Ref sig .tc) → Buf (Elt Ideal) ((c : Thread nD τ).loc b)) (c : Dev nD)
    (b : Fin 16) (i : Fin 64) (d : Fin 512) :
    ((dat0 V c).arrAt 9 cfg0.N : S16x64x512.Idx → EReal) (ix3 b i d)
      = Cert.Spec.ypre (V c main_arg0) (V c main_v0) (V c main_v1) (V c main_arg2) (V c main_v4) (V c main_arg4)
          (V c main_v2) (V c main_v3) (V c main_arg6) b i d :=
  (congrFun (final V c) (ix3 b i d)).trans (G_apply V c (ix3 b i d) b i d rfl rfl rfl)

end Cert.KernelIdeal.KVal0

end
-- ==== Proof.KVal1.lean ====
/- The normalization kernel's output array after its one grid point, read at a row and a feature. -/
import proofs.«415910_j38972533243937_3_alg».proof.Proof.Gen.KernelIdeal.Frame
import proofs.«415910_j38972533243937_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KVal1

open Idealize.ShloMosaic Idealize.ShloMosaic.TcCoe Idealize.ShloMosaic.ValueIdx Idealize.SL.Sem Cert.KernelIdeal Cert.KernelIdeal.Gen
open Cert.KernelIdeal.Facts₀

/-- A sum over the rows, read at a feature. -/
theorem rowsum_apply (v : FVec Ideal S1024x512 .f32) (d : Fin 512) :
    multiReduction (F := Ideal) .add [0] S512 v 0x00000000#32 Gen.reduces_S1024x512_S512 (.inl rfl) rfl (ix1 d)
      = ∑ r : Fin 1024, v (ix2 r d) := by
  refine (Ideal.multiReduction_add_single v 0x00000000#32 Gen.reduces_S1024x512_S512 (.inl rfl) rfl (ix1 d)).trans ?_
  refine Finset.sum_congr rfl fun k _ => congrArg v ?_
  funext a
  apply Fin.ext
  match a with
  | ⟨0, _⟩ => rfl
  | ⟨1, _⟩ => rfl

/-- The row of per-feature means, as the kernel computes it. -/
def meanV (v : FVec Ideal S1024x512 .f32) : FVec Ideal S1x512 .f32 :=
  divf (shapeCast S1x512 (multiReduction (F := Ideal) .add [0] S512 v 0x00000000#32 Gen.reduces_S1024x512_S512 (.inl rfl) rfl) Gen.shapeCasts_S512_S1x512)
    (broadcast S1x512 (Scalar.ofBits .f32 0x44800000#32))

theorem meanV_apply (v : FVec Ideal S1024x512 .f32) (u : Fin 1) (d : Fin 512) :
    meanV v (ix2 u d) = Cert.Spec.mean (fun r d => v (ix2 r d)) d := by
  show Ideal.div (shapeCast S1x512 _ Gen.shapeCasts_S512_S1x512 (ix2 u d)) (Ideal.ofBits .f32 0x44800000#32) = Ideal.div (∑ r : Fin 1024, v (ix2 r d)) (Ideal.ofBits .f32 0x44800000#32)
  exact congrArg (fun z => Ideal.div z (Ideal.ofBits .f32 0x44800000#32)) ((shapeCast_a_1a_apply _ Gen.shapeCasts_S512_S1x512 u d).trans (rowsum_apply v d))

/-- The row of per-feature reciprocal standard deviations, as the kernel computes it. -/
def rstdV (v : FVec Ideal S1024x512 .f32) : FVec Ideal S1x512 .f32 :=
  rsqrt (addf
    (divf (shapeCast S1x512 (multiReduction (F := Ideal) .add [0] S512
        (mulf (subf v (broadcastTo S1024x512 (meanV v) Gen.broadcasts_S1x512_S1024x512))
              (subf v (broadcastTo S1024x512 (meanV v) Gen.broadcasts_S1x512_S1024x512)))
        0x00000000#32 Gen.reduces_S1024x512_S512 (.inl rfl) rfl) Gen.shapeCasts_S512_S1x512)
      (broadcast S1x512 (Scalar.ofBits .f32 0x44800000#32)))
    (broadcast S1x512 (Scalar.ofBits .f32 0x3727C5AC#32)))

theorem rstdV_apply (v : FVec Ideal S1024x512 .f32) (u : Fin 1) (d : Fin 512) :
    rstdV v (ix2 u d) = Ideal.rsqrt (Cert.Spec.var (fun r d => v (ix2 r d)) d + Ideal.ofBits .f32 0x3727C5AC#32) := by
  show Ideal.rsqrt (Ideal.div (shapeCast S1x512 _ Gen.shapeCasts_S512_S1x512 (ix2 u d)) (Ideal.ofBits .f32 0x44800000#32) + Ideal.ofBits .f32 0x3727C5AC#32) = _
  refine congrArg (fun z => Ideal.rsqrt (Ideal.div z (Ideal.ofBits .f32 0x44800000#32) + Ideal.ofBits .f32 0x3727C5AC#32)) ?_
  refine (shapeCast_a_1a_apply _ Gen.shapeCasts_S512_S1x512 u d).trans ?_
  refine (rowsum_apply _ d).trans ?_
  refine Finset.sum_congr rfl fun r _ => ?_
  have e : broadcastTo S1024x512 (meanV v) Gen.broadcasts_S1x512_S1024x512 (ix2 r d) = Cert.Spec.mean (fun r d => v (ix2 r d)) d :=
    (broadcastTo_1b_ab_apply (meanV v) Gen.broadcasts_S1x512_S1024x512 r d).trans (meanV_apply v 0 d)
  show (v (ix2 r d) - broadcastTo S1024x512 (meanV v) Gen.broadcasts_S1x512_S1024x512 (ix2 r d)) * (v (ix2 r d) - broadcastTo S1024x512 (meanV v) Gen.broadcasts_S1x512_S1024x512 (ix2 r d)) = _
  rw [e]

/-- The whole body over the loaded rows: normalize, scale, shift, leaky. -/
def body (v : FVec Ideal S1024x512 .f32) (x1 x2 : FVec Ideal S512 .f32) : FVec Ideal S1024x512 .f32 := fun i =>
  Cert.Spec.lk ((((v i - broadcastTo S1024x512 (meanV v) Gen.broadcasts_S1x512_S1024x512 i)
      * broadcastTo S1024x512 (rstdV v) Gen.broadcasts_S1x512_S1024x512 i)
      * broadcastTo S1024x512 (shapeCast S1x512 x1 Gen.shapeCasts_S512_S1x512) Gen.broadcasts_S1x512_S1024x512 i)
      + broadcastTo S1024x512 (shapeCast S1x512 x2 Gen.shapeCasts_S512_S1x512) Gen.broadcasts_S1x512_S1024x512 i)

theorem body_apply (v : FVec Ideal S1024x512 .f32) (x1 x2 : FVec Ideal S512 .f32) (r : Fin 1024) (d : Fin 512) :
    body v x1 x2 (ix2 r d) = Cert.Spec.bn (fun r d => v (ix2 r d)) x1 x2 r d := by
  unfold body
  rw [broadcastTo_1b_ab_apply (meanV v) Gen.broadcasts_S1x512_S1024x512 r d,
    broadcastTo_1b_ab_apply (rstdV v) Gen.broadcasts_S1x512_S1024x512 r d,
    broadcastTo_1b_ab_apply (shapeCast S1x512 x1 Gen.shapeCasts_S512_S1x512) Gen.broadcasts_S1x512_S1024x512 r d,
    broadcastTo_1b_ab_apply (shapeCast S1x512 x2 Gen.shapeCasts_S512_S1x512) Gen.broadcasts_S1x512_S1024x512 r d,
    meanV_apply v 0 d, rstdV_apply v 0 d,
    shapeCast_a_1a_apply x1 Gen.shapeCasts_S512_S1x512 0 d, shapeCast_a_1a_apply x2 Gen.shapeCasts_S512_S1x512 0 d]
  rfl

/-- The kernel's stored block is that body of its three loaded blocks. -/
theorem pay_eq (x0 : Vec Ideal S1024x512 .f32) (x1 x2 : Vec Ideal S512 .f32) : k1_pay1 x0 x1 x2 = body x0 x1 x2 := by
  show body (shapeCast S1024x512 x0 Gen.shapeCasts_S1024x512_S1024x512) x1 x2 = _
  rw [shapeCast_self]

theorem pay_apply (x0 : Vec Ideal S1024x512 .f32) (x1 x2 : Vec Ideal S512 .f32) (r : Fin 1024) (d : Fin 512) :
    k1_pay1 x0 x1 x2 (ix2 r d) = Cert.Spec.bn (fun r d => x0 (ix2 r d)) x1 x2 r d :=
  (congrFun (pay_eq x0 x1 x2) (ix2 r d)).trans (body_apply x0 x1 x2 r d)

/-- The stored block at any index of the block. -/
theorem pay_at (x0 : Vec Ideal S1024x512 .f32) (x1 x2 : Vec Ideal S512 .f32) (j : S1024x512.Idx) :
    k1_pay1 x0 x1 x2 j = Cert.Spec.bn (fun r d => x0 (ix2 r d)) x1 x2 (j 0) (j 1) :=
  (congrArg (k1_pay1 x0 x1 x2) (eq_ix2 j)).trans (pay_apply x0 x1 x2 (j 0) (j 1))

theorem hz2 : (![0, 0] : Fin 2 → Nat) = fun _ => 0 := funext fun a => by fin_cases a <;> rfl
theorem hz1 : (![0] : Fin 1 → Nat) = fun _ => 0 := funext fun a => by fin_cases a; rfl

/-- The one grid point's block of every window is block 0 on every axis. -/
theorem idx_facts : ∀ t : Fin cfg1.N, win1_0.index t (0 : Fin 2) = 0 ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0 :=
  (by decide +kernel : ∀ t : Fin grid1.N, _)

section Blocks

variable (V : (c : Dev nD) → (b : Ref sig .tc) → Buf (Elt Ideal) ((c : Thread nD τ).loc b)) (c : Dev nD)

/-- The rows' block at the point is the whole array of rows. -/
theorem blk0_eq (t : Fin cfg1.N) : (iblk1 V c 0 t : Vec Ideal S1024x512 .f32) = (V c main_v6 : S1024x512.Idx → EReal) := by
  obtain ⟨e0, e1, -, -, -, -⟩ := idx_facts t
  funext y
  show V c main_v6 (((cfg1.win 0).blk t).view.emb y) = V c main_v6 y
  refine congrArg (V c main_v6) ?_
  funext a; apply Fin.ext
  match a with
  | ⟨0, _⟩ => show win1_0.index t (0 : Fin 2) * 1024 + 1 * (y 0).val = (y 0).val; omega
  | ⟨1, _⟩ => show win1_0.index t (1 : Fin 2) * 512 + 1 * (y 1).val = (y 1).val; omega

/-- The scale's block at the point is the whole scale. -/
theorem blk1_eq (t : Fin cfg1.N) : (iblk1 V c 1 t : Vec Ideal S512 .f32) = (V c main_arg7 : S512.Idx → EReal) := by
  obtain ⟨-, -, e2, -, -, -⟩ := idx_facts t
  funext y
  show V c main_arg7 (((cfg1.win 1).blk t).view.emb y) = V c main_arg7 y
  refine congrArg (V c main_arg7) ?_
  funext a; apply Fin.ext
  match a with
  | ⟨0, _⟩ => show win1_1.index t (0 : Fin 1) * 512 + 1 * (y 0).val = (y 0).val; omega

/-- The shift's block at the point is the whole shift. -/
theorem blk2_eq (t : Fin cfg1.N) : (iblk1 V c 2 t : Vec Ideal S512 .f32) = (V c main_arg8 : S512.Idx → EReal) := by
  obtain ⟨-, -, -, e3, -, -⟩ := idx_facts t
  funext y
  show V c main_arg8 (((cfg1.win 2).blk t).view.emb y) = V c main_arg8 y
  refine congrArg (V c main_arg8) ?_
  funext a; apply Fin.ext
  match a with
  | ⟨0, _⟩ => show win1_2.index t (0 : Fin 1) * 512 + 1 * (y 0).val = (y 0).val; omega

/-- The normalized array, index by index, of the arrays as the region finds them. -/
abbrev G : S1024x512.Idx → EReal := fun i =>
  Cert.Spec.bn (fun r d => (V c main_v6 : S1024x512.Idx → EReal) (ix2 r d)) (V c main_arg7) (V c main_arg8) (i 0) (i 1)

/-- The stored block of given blocks, read where the output's block sits. -/
theorem block_eq (x0 a0 : S1024x512.Idx → EReal) (x1 a1 x2 a2 : S512.Idx → EReal) (h0 : x0 = a0) (h1 : x1 = a1) (h2 : x2 = a2)
    (j k : S1024x512.Idx) (hk : k = j) :
    k1_pay1 (F := Ideal) x0 x1 x2 j = Cert.Spec.bn (fun r d => a0 (ix2 r d)) a1 a2 (k 0) (k 1) := by
  subst h0 h1 h2 hk
  exact pay_at x0 x1 x2 k

/-- What the point writes back is its block of the normalized array. -/
theorem flushed_eq (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S1024x512) hz2, View.ld_unit_zero (S := S512) hz1]
  obtain ⟨-, -, -, -, e4, e5⟩ := idx_facts t
  funext j
  show k1_pay1 (F := Ideal) (iblk1 V c 0 t) (iblk1 V c 1 t) (iblk1 V c 2 t) j = G V c (((cfg1.win 3).blk t).view.emb j)
  refine block_eq (iblk1 V c 0 t) (V c main_v6) (iblk1 V c 1 t) (V c main_arg7) (iblk1 V c 2 t) (V c main_arg8)
    (blk0_eq V c t) (blk1_eq V c t) (blk2_eq V c t) j (((cfg1.win 3).blk t).view.emb j) ?_
  funext a; apply Fin.ext
  match a with
  | ⟨0, _⟩ => show win1_3.index t (0 : Fin 2) * 1024 + 1 * (j 0).val = (j 0).val; omega
  | ⟨1, _⟩ => show win1_3.index t (1 : Fin 2) * 512 + 1 * (j 1).val = (j 1).val; omega

/-- An index of the array is in the point's block iff each coordinate is in the block's range on its axis. -/
theorem mem_blk (t : Fin cfg1.N) (i : S1024x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v7).slice (win1_3.rect t)).set ↔ _
  rw [View.set_slice_whole, Rect.mem_set_unit]
  exact Iff.rfl

/-- The one point's block is the whole array. -/
theorem cover (i : S1024x512.Idx) : ∃ t : Fin cfg1.N, (cfg1.win 3).flush t = true ∧ i ∈ ((cfg1.win 3).blk t).view.set := by
  refine ⟨t1_0, flush1_3 t1_0, ?_⟩
  rw [mem_blk]
  obtain ⟨-, -, -, -, e4, e5⟩ := idx_facts t1_0
  have h0 : (i 0).val < 1024 := idx2_lt0 i
  have h1 : (i 1).val < 512 := idx2_lt1 i
  intro a
  match a with
  | ⟨0, _⟩ => show win1_3.index t1_0 (0 : Fin 2) * 1024 ≤ (i 0).val ∧ (i 0).val < win1_3.index t1_0 (0 : Fin 2) * 1024 + 1024; omega
  | ⟨1, _⟩ => show win1_3.index t1_0 (1 : Fin 2) * 512 ≤ (i 1).val ∧ (i 1).val < win1_3.index t1_0 (1 : Fin 2) * 512 + 512; omega

/-- So the output array ends holding the normalized array. -/
theorem arr_eq : (dat1 V c).arrAt 3 cfg1.N = G V c :=
  (dat1 V c).arrAt_eq_of_cover 3 (G V c) (fun t _ => flushed_eq V c t) (cover)

end Blocks

theorem arr3 (V : (c : Dev nD) → (b : Ref sig .tc) → Buf (Elt Ideal) ((c : Thread nD τ).loc b)) (c : Dev nD)
    (r : Fin 1024) (d : Fin 512) :
    ((dat1 V c).arrAt 3 cfg1.N : S1024x512.Idx → EReal) (ix2 r d)
      = Cert.Spec.bn (fun r d => (V c main_v6 : S1024x512.Idx → EReal) (ix2 r d)) (V c main_arg7) (V c main_arg8) r d :=
  congrFun (arr_eq V c) (ix2 r d)

end Cert.KernelIdeal.KVal1

end
-- ==== Proof.KChain.lean ====
/-
  The kernel program's result buffer as a function of the launch contents, index by index.

  The result is the second kernel's output array given its [16, 64] row shape back; that array is the
  normalization of the first kernel's output array flattened to 1024 rows; and the first kernel reads the node
  features, the two halves of each of the two 1024-row weight matrices (cut out by the host before the call), the
  middle weight matrix (converted to a narrower float format, which is the identity on the extended reals) and the
  biases as launched. Nothing between the two calls writes any of these but the one reshape.
-/
import proofs.«415910_j38972533243937_3_alg».proof.Proof.Gen.KernelIdeal.Frame
import proofs.«415910_j38972533243937_3_alg».proof.Proof.Spec
import proofs.«415910_j38972533243937_3_alg».proof.Proof.KVal0
import proofs.«415910_j38972533243937_3_alg».proof.Proof.KVal1
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.KChain

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## What the first kernel finds -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg6 (c : Dev nD) : V1 m ρ c main_arg6 = m ((c : Thread nD τ).loc main_arg6) := by
  show StableHlo.after hostOps0 (W0 m ρ c) (Proc.devRef .tc main_arg6) = _
  after_results
theorem V1_v0 (c : Dev nD) : (V1 m ρ c main_v0 : S512x512.Idx → EReal)
    = extractStridedSlice S512x512 ![0, 0] (m ((c : Thread nD τ).loc main_arg1) : S1024x512.Idx → EReal) Facts₀.slices_S1024x512_S512x512_0_0 := by
  show StableHlo.after hostOps0 (W0 m ρ c) (Proc.devRef .tc main_v0) = _
  after_results
theorem V1_v1 (c : Dev nD) : (V1 m ρ c main_v1 : S512x512.Idx → EReal)
    = extractStridedSlice S512x512 ![512, 0] (m ((c : Thread nD τ).loc main_arg1) : S1024x512.Idx → EReal) Facts₀.slices_S1024x512_S512x512_512_0 := by
  show StableHlo.after hostOps0 (W0 m ρ c) (Proc.devRef .tc main_v1) = _
  after_results
theorem V1_v2 (c : Dev nD) : (V1 m ρ c main_v2 : S512x512.Idx → EReal)
    = extractStridedSlice S512x512 ![0, 0] (m ((c : Thread nD τ).loc main_arg5) : S1024x512.Idx → EReal) Facts₀.slices_S1024x512_S512x512_0_0 := by
  show StableHlo.after hostOps0 (W0 m ρ c) (Proc.devRef .tc main_v2) = _
  after_results
theorem V1_v3 (c : Dev nD) : (V1 m ρ c main_v3 : S512x512.Idx → EReal)
    = extractStridedSlice S512x512 ![512, 0] (m ((c : Thread nD τ).loc main_arg5) : S1024x512.Idx → EReal) Facts₀.slices_S1024x512_S512x512_512_0 := by
  show StableHlo.after hostOps0 (W0 m ρ c) (Proc.devRef .tc main_v3) = _
  after_results
/-- The narrower copy of the middle weight matrix is the matrix itself on the extended reals. -/
theorem V1_v4 (c : Dev nD) : (V1 m ρ c main_v4 : S512x512.Idx → EReal) = m ((c : Thread nD τ).loc main_arg3) := by
  show StableHlo.after hostOps0 (W0 m ρ c) (Proc.devRef .tc main_v4) = _
  after_results
  rfl

/-! ## What the second kernel finds -/

theorem V3_v6 (c : Dev nD) : (V3 m ρ c main_v6 : S1024x512.Idx → EReal)
    = shapeCast S1024x512 ((dat0 (V1 m ρ) c).arrAt 9 cfg0.N : S16x64x512.Idx → EReal) Facts₀.shapeCasts_S16x64x512_S1024x512 := by
  show StableHlo.after hostOps1 (W2 m ρ c) (Proc.devRef .tc main_v6) = _
  after_results
  exact congrArg (fun x => shapeCast S1024x512 x Facts₀.shapeCasts_S16x64x512_S1024x512) (W2_arr m ρ c 9)

theorem V3_arg7 (c : Dev nD) : V3 m ρ c main_arg7 = m ((c : Thread nD τ).loc main_arg7) :=
  calc V3 m ρ c main_arg7
    _ = W2 m ρ c (Proc.devRef .tc main_arg7) := by
        show StableHlo.after hostOps1 (W2 m ρ c) (Proc.devRef .tc main_arg7) = _
        after_results
    _ = W1 m ρ c (Proc.devRef .tc main_arg7) := W2_of_ne m ρ c main_arg7 (by decide)
    _ = m ((c : Thread nD τ).loc main_arg7) := by
        show StableHlo.after hostOps0 (W0 m ρ c) (Proc.devRef .tc main_arg7) = _
        after_results

theorem V3_arg8 (c : Dev nD) : V3 m ρ c main_arg8 = m ((c : Thread nD τ).loc main_arg8) :=
  calc V3 m ρ c main_arg8
    _ = W2 m ρ c (Proc.devRef .tc main_arg8) := by
        show StableHlo.after hostOps1 (W2 m ρ c) (Proc.devRef .tc main_arg8) = _
        after_results
    _ = W1 m ρ c (Proc.devRef .tc main_arg8) := W2_of_ne m ρ c main_arg8 (by decide)
    _ = m ((c : Thread nD τ).loc main_arg8) := by
        show StableHlo.after hostOps0 (W0 m ρ c) (Proc.devRef .tc main_arg8) = _
        after_results

/-! ## The result -/

theorem W5_v8 (c : Dev nD) : (W5 m ρ c (Proc.devRef .tc main_v8) : S16x64x512.Idx → EReal)
    = shapeCast S16x64x512 ((dat1 (V3 m ρ) c).arrAt 3 cfg1.N : S1024x512.Idx → EReal) Facts₀.shapeCasts_S1024x512_S16x64x512 := by
  show StableHlo.after hostOps2 (W4 m ρ c) (Proc.devRef .tc main_v8) = _
  after_results
  exact congrArg (fun x => shapeCast S16x64x512 x Facts₀.shapeCasts_S1024x512_S16x64x512) (W4_arr m ρ c 3)

/-- Row `r` of the flattened first output is node `r % 64` of graph `r / 64`. -/
theorem V3_v6_apply (c : Dev nD) (r : Fin 1024) (d : Fin 512) :
    (V3 m ρ c main_v6 : S1024x512.Idx → EReal) (ix2 r d)
      = ((dat0 (V1 m ρ) c).arrAt 9 cfg0.N : S16x64x512.Idx → EReal) (ix3 (Cert.Spec.rdiv r) (Cert.Spec.rmod r) d) := by
  rw [V3_v6]
  refine shapeCast_apply (s := S16x64x512) (t := S1024x512) _ _ (ix2 r d) (ix3 (Cert.Spec.rdiv r) (Cert.Spec.rmod r) d) ?_
  show (S16x64x512.rowMajor (ix3 (Cert.Spec.rdiv r) (Cert.Spec.rmod r) d)).val = (S1024x512.rowMajor (ix2 r d)).val
  rw [Shape.rowMajor_val_three, Shape.rowMajor_val_two]
  show (r.val / 64 * 64 + r.val % 64) * 512 + d.val = r.val * 512 + d.val
  have := Nat.div_add_mod r.val 64
  omega

theorem result_apply (c : Dev nD) (b : Fin 16) (i : Fin 64) (d : Fin 512) :
    (W5 m ρ c (Proc.devRef .tc main_v8) : S16x64x512.Idx → EReal) (ix3 b i d)
      = Cert.Spec.out (m ((c : Thread nD τ).loc main_arg0))
          (extractStridedSlice S512x512 ![0, 0] (m ((c : Thread nD τ).loc main_arg1) : S1024x512.Idx → EReal) Facts₀.slices_S1024x512_S512x512_0_0)
          (extractStridedSlice S512x512 ![512, 0] (m ((c : Thread nD τ).loc main_arg1) : S1024x512.Idx → EReal) Facts₀.slices_S1024x512_S512x512_512_0)
          (m ((c : Thread nD τ).loc main_arg2)) (m ((c : Thread nD τ).loc main_arg3)) (m ((c : Thread nD τ).loc main_arg4))
          (extractStridedSlice S512x512 ![0, 0] (m ((c : Thread nD τ).loc main_arg5) : S1024x512.Idx → EReal) Facts₀.slices_S1024x512_S512x512_0_0)
          (extractStridedSlice S512x512 ![512, 0] (m ((c : Thread nD τ).loc main_arg5) : S1024x512.Idx → EReal) Facts₀.slices_S1024x512_S512x512_512_0)
          (m ((c : Thread nD τ).loc main_arg6)) (m ((c : Thread nD τ).loc main_arg7)) (m ((c : Thread nD τ).loc main_arg8)) b i d := by
  rw [W5_v8]
  refine (shapeCast_apply (s := S1024x512) (t := S16x64x512) _ _ (ix3 b i d) (ix2 (Cert.Spec.row b i) d) ?_).trans ?_
  · show (S1024x512.rowMajor (ix2 (Cert.Spec.row b i) d)).val = (S16x64x512.rowMajor (ix3 b i d)).val
    rw [Shape.rowMajor_val_three, Shape.rowMajor_val_two]
    show (b.val * 64 + i.val) * 512 + d.val = (b.val * 64 + i.val) * 512 + d.val
    rfl
  rw [Cert.KernelIdeal.KVal1.arr3 (V3 m ρ) c (Cert.Spec.row b i) d, V3_arg7, V3_arg8]
  unfold Cert.Spec.out
  congr 1
  funext r d'
  rw [V3_v6_apply, Cert.KernelIdeal.KVal0.arr9 (V1 m ρ) c, V1_arg0, V1_arg2, V1_arg4, V1_arg6, V1_v0, V1_v1, V1_v2, V1_v3, V1_v4]

end Cert.KernelIdeal.KChain

end
-- ==== Proof.RefTerm.lean ====
/-
  The reference's result as a composition of whole-array stages, each a term of the host operations the
  reference applies, in its order: the two projections of the node features and the first leaky layer on all
  pairs (`rH1`), the second layer (`rH2`), the sum over the partner node (`rMsg`), the fused linear layer on the
  concatenation `[X, msg]` flattened to 1024 rows (`rY`), the batch mean (`rMean`) and biased variance (`rVar`:
  jnp.var's quotient by `1024 - ddof` with `ddof = 0`, guarded by a select on `1024 - ddof > 0`), and the
  normalized, scaled, shifted, leaky result reshaped to [16, 64, 512] (`rOut`).
-/
import proofs.«415910_j38972533243937_3_alg».proof.ReferenceIdeal

noncomputable section

namespace Cert.ReferenceIdeal.RefValue

open Idealize.ShloMosaic Cert.ReferenceIdeal Cert.ReferenceIdeal.Facts₀

variable {F : FTy → Type} [FloatOps F] [Facts]

/-- The leaky unit on a [16, 64, 64, 512] array: select on `x ≥ 0` between `x` and `0.2 · x`. -/
def rLeaky4 (x : FVec F S16x64x64x512 .f32) : FVec F S16x64x64x512 .f32 :=
  select (cmpf .oge x (broadcastInDim S16x64x64x512 ![] bcast_S_S16x64x64x512 (constant S_ .f32 0x00000000#32)))
    x (mulf (broadcastInDim S16x64x64x512 ![] bcast_S_S16x64x64x512 (constant S_ .f32 0x3E4CCCCD#32)) x)

/-- The node features through a [512, 512] weight matrix. -/
def rProj (X : FVec F S16x64x512 .f32) (W : FVec F S512x512 .f32) : FVec F S16x64x512 .f32 :=
  Host.dotGeneral dot_S16x64x512_S512x512_S16x64x512_2_0_01_1_n_n none X W

/-- A [512] vector broadcast along the last axis of [16, 64, 64, 512]. -/
def rBias4 (v : FVec F S512 .f32) : FVec F S16x64x64x512 .f32 :=
  broadcastInDim S16x64x64x512 ![0, 1, 2, 3] bcast_S1x1x1x512_S16x64x64x512_0_1_2_3
    (broadcastInDim S1x1x1x512 ![3] bcast_S512_S1x1x1x512_3 v)

/-- The first relation layer on every ordered pair of nodes. -/
def rH1 (X : FVec F S16x64x512 .f32) (W1 : FVec F S1024x512 .f32) (b1 : FVec F S512 .f32) : FVec F S16x64x64x512 .f32 :=
  rLeaky4 (addf
    (addf
      (broadcastInDim S16x64x64x512 ![0, 1, 2, 3] bcast_S16x64x1x512_S16x64x64x512_0_1_2_3
        (broadcastInDim S16x64x1x512 ![0, 1, 3] bcast_S16x64x512_S16x64x1x512_0_1_3
          (rProj X (extractStridedSlice S512x512 ![0, 0] W1 slices_S1024x512_S512x512_0_0))))
      (broadcastInDim S16x64x64x512 ![0, 1, 2, 3] bcast_S16x1x64x512_S16x64x64x512_0_1_2_3
        (broadcastInDim S16x1x64x512 ![0, 2, 3] bcast_S16x64x512_S16x1x64x512_0_2_3
          (rProj X (extractStridedSlice S512x512 ![512, 0] W1 slices_S1024x512_S512x512_512_0)))))
    (rBias4 b1))

/-- The second relation layer. -/
def rH2 (h1 : FVec F S16x64x64x512 .f32) (W2 : FVec F S512x512 .f32) (b2 : FVec F S512 .f32) : FVec F S16x64x64x512 .f32 :=
  rLeaky4 (addf (Host.dotGeneral dot_S16x64x64x512_S512x512_S16x64x64x512_3_0_012_1_n_n none h1 W2) (rBias4 b2))

/-- The sum over the partner node. -/
def rMsg (h2 : FVec F S16x64x64x512 .f32) : FVec F S16x64x512 .f32 :=
  Host.reduceAdd h2 (constant S_ .f32 0x00000000#32) reducesTo_S16x64x64x512_S16x64x512_d2 h_S_

/-- A [512] vector broadcast along the rows of [1024, 512]. -/
def rBias2 (v : FVec F S512 .f32) : FVec F S1024x512 .f32 :=
  broadcastInDim S1024x512 ![0, 1] bcast_S1x512_S1024x512_0_1 (broadcastInDim S1x512 ![1] bcast_S512_S1x512_1 v)

/-- The fused linear layer on `[X, msg]`, flattened to 1024 rows. -/
def rY (X : FVec F S16x64x512 .f32) (W1 : FVec F S1024x512 .f32) (b1 : FVec F S512 .f32) (W2 : FVec F S512x512 .f32)
    (b2 : FVec F S512 .f32) (Wf : FVec F S1024x512 .f32) (bf : FVec F S512 .f32) : FVec F S1024x512 .f32 :=
  addf
    (Host.dotGeneral dot_S1024x1024_S1024x512_S1024x512_1_0_0_1_n_n none
      (shapeCast S1024x1024
        (concatenate S16x64x1024 2 [⟨S16x64x512, X⟩, ⟨S16x64x512, rMsg (rH2 (rH1 X W1 b1) W2 b2)⟩]
          concatenates_S16x64x512_S16x64x512_S16x64x1024_d2)
        shapeCasts_S16x64x1024_S1024x1024)
      Wf)
    (rBias2 bf)

/-- The batch mean, per feature. -/
def rMean (y : FVec F S1024x512 .f32) : FVec F S512 .f32 :=
  Host.divf (Host.reduceAdd y (constant S_ .f32 0x00000000#32) reducesTo_S1024x512_S512_d0 h_S_)
    (broadcastInDim S512 ![] bcast_S_S512 (constant S_ .f32 0x44800000#32))

/-- `1024 - ddof` at `ddof = 0`: jnp.var's divisor. -/
def rCount : FVec F S_ .f32 :=
  subf (constant S_ .f32 0x44800000#32) (sitofp .f32 (constantI S_ 32 0#32))

/-- The biased batch variance, per feature, as jnp.var spells it. -/
def rVar (y : FVec F S1024x512 .f32) : FVec F S512 .f32 :=
  select (broadcastInDim S512 ![] bcast_S_S512 (cmpf .ogt (rCount (F := F)) (constant S_ .f32 0x00000000#32)))
    (Host.divf
      (Host.reduceAdd
        (mulf
          (subf y (broadcastInDim S1024x512 ![0, 1] bcast_S1x512_S1024x512_0_1
            (Host.divf
              (broadcastInDim S1x512 ![1] bcast_S512_S1x512_1
                (Host.reduceAdd y (constant S_ .f32 0x00000000#32) reducesTo_S1024x512_S512_d0 h_S_))
              (broadcastInDim S1x512 ![] bcast_S_S1x512 (constant S_ .f32 0x44800000#32)))))
          (subf y (broadcastInDim S1024x512 ![0, 1] bcast_S1x512_S1024x512_0_1
            (Host.divf
              (broadcastInDim S1x512 ![1] bcast_S512_S1x512_1
                (Host.reduceAdd y (constant S_ .f32 0x00000000#32) reducesTo_S1024x512_S512_d0 h_S_))
              (broadcastInDim S1x512 ![] bcast_S_S1x512 (constant S_ .f32 0x44800000#32))))))
        (constant S_ .f32 0x00000000#32) reducesTo_S1024x512_S512_d0 h_S_)
      (broadcastInDim S512 ![] bcast_S_S512 (rCount (F := F))))
    (broadcastInDim S512 ![] bcast_S_S512 (constant S_ .f32 0x7FC00000#32))

/-- The leaky unit on a [1024, 512] array. -/
def rLeaky2 (x : FVec F S1024x512 .f32) : FVec F S1024x512 .f32 :=
  select (cmpf .oge x (broadcastInDim S1024x512 ![] bcast_S_S1024x512 (constant S_ .f32 0x00000000#32)))
    x (mulf (broadcastInDim S1024x512 ![] bcast_S_S1024x512 (constant S_ .f32 0x3E4CCCCD#32)) x)

/-- Normalize by the batch statistics, scale, shift, leaky, and give the rows their [16, 64] shape back. -/
def rOut (y : FVec F S1024x512 .f32) (g β : FVec F S512 .f32) : FVec F S16x64x512 .f32 :=
  shapeCast S16x64x512
    (rLeaky2 (addf
      (mulf
        (mulf (subf y (rBias2 (rMean y)))
          (rBias2 (Host.rsqrt (addf (rVar y) (broadcastInDim S512 ![] bcast_S_S512 (constant S_ .f32 0x3727C5AC#32))))))
        (rBias2 g))
      (rBias2 β)))
    shapeCasts_S1024x512_S16x64x512

end Cert.ReferenceIdeal.RefValue

end
-- ==== Proof.RefRun.lean ====
/- The reference's run: @main is a straight line of host operations (the outlined functions' bodies inlined at
   their calls), so every weakly fair execution ends with each buffer at the operations' fold over the launch contents;
   the result buffer's fold is the stage composition of RefTerm.lean. -/
import proofs.«415910_j38972533243937_3_alg».proof.ReferenceIdeal
import proofs.«415910_j38972533243937_3_alg».proof.Proof.Gen.ReferenceIdeal
import proofs.«415910_j38972533243937_3_alg».proof.Proof.RefTerm
import Idealize.ShloMosaic.Lib.StableHlo.Run

noncomputable section

namespace Cert.ReferenceIdeal.RefValue

open Idealize.ShloMosaic Idealize.ShloMosaic.TcCoe Idealize.ShloMosaic.StableHlo Idealize.SL.Sem Cert.ReferenceIdeal Cert.ReferenceIdeal.Facts₀

variable {F : FTy → Type} [FloatOps F] [Facts]
/-- @main's ninety operations in order, the calls unfolded: each `_where` is its one select; `_var` is its
    nineteen operations and then `_where_0`'s three (the NaN constant converted to its own type, its broadcast,
    the select under the broadcast predicate). -/
abbrev ops : List (HloOp τ sig (Elt F)) :=
  [ StableHlo.unary main_arg1 main_v0 ((extractStridedSlice S512x512 ![0, 0] · slices_S1024x512_S512x512_0_0) : (⟨S1024x512, .f32⟩ : BufTy).Contents (Elt F) → (⟨S512x512, .f32⟩ : BufTy).Contents (Elt F)),
    StableHlo.binary main_arg0 main_v0 main_v1 ((fun l r => Host.dotGeneral dot_S16x64x512_S512x512_S16x64x512_2_0_01_1_n_n none l r) : (⟨S16x64x512, .f32⟩ : BufTy).Contents (Elt F) → (⟨S512x512, .f32⟩ : BufTy).Contents (Elt F) → (⟨S16x64x512, .f32⟩ : BufTy).Contents (Elt F)),
    StableHlo.unary main_arg1 main_v2 ((extractStridedSlice S512x512 ![512, 0] · slices_S1024x512_S512x512_512_0) : (⟨S1024x512, .f32⟩ : BufTy).Contents (Elt F) → (⟨S512x512, .f32⟩ : BufTy).Contents (Elt F)),
    StableHlo.binary main_arg0 main_v2 main_v3 ((fun l r => Host.dotGeneral dot_S16x64x512_S512x512_S16x64x512_2_0_01_1_n_n none l r) : (⟨S16x64x512, .f32⟩ : BufTy).Contents (Elt F) → (⟨S512x512, .f32⟩ : BufTy).Contents (Elt F) → (⟨S16x64x512, .f32⟩ : BufTy).Contents (Elt F)),
    StableHlo.unary main_v1 main_v4 (broadcastInDim S16x64x1x512 ![0, 1, 3] bcast_S16x64x512_S16x64x1x512_0_1_3 : (⟨S16x64x512, .f32⟩ : BufTy).Contents (Elt F) → (⟨S16x64x1x512, .f32⟩ : BufTy).Contents (Elt F)),
    StableHlo.unary main_v3 main_v5 (broadcastInDim S16x1x64x512 ![0, 2, 3] bcast_S16x64x512_S16x1x64x512_0_2_3 : (⟨S16x64x512, .f32⟩ : BufTy).Contents (Elt F) → (⟨S16x1x64x512, .f32⟩ : BufTy).Contents (Elt F)),
    StableHlo.unary main_v4 main_v6 (broadcastInDim S16x64x64x512 ![0, 1, 2, 3] bcast_S16x64x1x512_S16x64x64x512_0_1_2_3 : (⟨S16x64x1x512, .f32⟩ : BufTy).Contents (Elt F) → (⟨S16x64x64x512, .f32⟩ : BufTy).Contents (Elt F)),
    StableHlo.unary main_v5 main_v7 (broadcastInDim S16x64x64x512 ![0, 1, 2, 3] bcast_S16x1x64x512_S16x64x64x512_0_1_2_3 : (⟨S16x1x64x512, .f32⟩ : BufTy).Contents (Elt F) → (⟨S16x64x64x512, .f32⟩ : BufTy).Contents (Elt F)),
    StableHlo.binary main_v6 main_v7 main_v8 (addf : (⟨S16x64x64x512, .f32⟩ : BufTy).Contents (Elt F) → (⟨S16x64x64x512, .f32⟩ : BufTy).Contents (Elt F) → (⟨S16x64x64x512, .f32⟩ : BufTy).Contents (Elt F)),
    StableHlo.unary main_arg2 main_v9 (broadcastInDim S1x1x1x512 ![3] bcast_S512_S1x1x1x512_3 : (⟨S512, .f32⟩ : BufTy).Contents (Elt F) → (⟨S1x1x1x512, .f32⟩ : BufTy).Contents (Elt F)),
    StableHlo.unary main_v9 main_v10 (broadcastInDim S16x64x64x512 ![0, 1, 2, 3] bcast_S1x1x1x512_S16x64x64x512_0_1_2_3 : (⟨S1x1x1x512, .f32⟩ : BufTy).Contents (Elt F) → (⟨S16x64x64x512, .f32⟩ : BufTy).Contents (Elt F)),
    StableHlo.binary main_v8 main_v10 main_v11 (addf : (⟨S16x64x64x512, .f32⟩ : BufTy).Contents (Elt F) → (⟨S16x64x64x512, .f32⟩ : BufTy).Contents (Elt F) → (⟨S16x64x64x512, .f32⟩ : BufTy).Contents (Elt F)),
    StableHlo.nullary main_cst (constant S_ .f32 0x00000000#32),
    StableHlo.unary main_cst main_v12 (broadcastInDim S16x64x64x512 ![] bcast_S_S16x64x64x512 : (⟨S_, .f32⟩ : BufTy).Contents (Elt F) → (⟨S16x64x64x512, .f32⟩ : BufTy).Contents (Elt F)),
    StableHlo.binary main_v11 main_v12 main_v13 (cmpf .oge : (⟨S16x64x64x512, .f32⟩ : BufTy).Contents (Elt F) → (⟨S16x64x64x512, .f32⟩ : BufTy).Contents (Elt F) → (⟨S16x64x64x512, .i1⟩ : BufTy).Contents (Elt F)),
    StableHlo.nullary main_cst_0 (constant S_ .f32 0x3E4CCCCD#32),
    StableHlo.unary main_cst_0 main_v14 (broadcastInDim S16x64x64x512 ![] bcast_S_S16x64x64x512 : (⟨S_, .f32⟩ : BufTy).Contents (Elt F) → (⟨S16x64x64x512, .f32⟩ : BufTy).Contents (Elt F)),
    StableHlo.binary main_v14 main_v11 main_v15 (mulf : (⟨S16x64x64x512, .f32⟩ : BufTy).Contents (Elt F) → (⟨S16x64x64x512, .f32⟩ : BufTy).Contents (Elt F) → (⟨S16x64x64x512, .f32⟩ : BufTy).Contents (Elt F)),
    StableHlo.TRef.ternary (.of main_v13 : StableHlo.TRef sig ⟨S16x64x64x512, .i1⟩) (.of main_v11 : StableHlo.TRef sig ⟨S16x64x64x512, .f32⟩) (.of main_v15 : StableHlo.TRef sig ⟨S16x64x64x512, .f32⟩) main_call0.v0 select,
    StableHlo.binary main_v16 main_arg3 main_v17 ((fun l r => Host.dotGeneral dot_S16x64x64x512_S512x512_S16x64x64x512_3_0_012_1_n_n none l r) : (⟨S16x64x64x512, .f32⟩ : BufTy).Contents (Elt F) → (⟨S512x512, .f32⟩ : BufTy).Contents (Elt F) → (⟨S16x64x64x512, .f32⟩ : BufTy).Contents (Elt F)),
    StableHlo.unary main_arg4 main_v18 (broadcastInDim S1x1x1x512 ![3] bcast_S512_S1x1x1x512_3 : (⟨S512, .f32⟩ : BufTy).Contents (Elt F) → (⟨S1x1x1x512, .f32⟩ : BufTy).Contents (Elt F)),
    StableHlo.unary main_v18 main_v19 (broadcastInDim S16x64x64x512 ![0, 1, 2, 3] bcast_S1x1x1x512_S16x64x64x512_0_1_2_3 : (⟨S1x1x1x512, .f32⟩ : BufTy).Contents (Elt F) → (⟨S16x64x64x512, .f32⟩ : BufTy).Contents (Elt F)),
    StableHlo.binary main_v17 main_v19 main_v20 (addf : (⟨S16x64x64x512, .f32⟩ : BufTy).Contents (Elt F) → (⟨S16x64x64x512, .f32⟩ : BufTy).Contents (Elt F) → (⟨S16x64x64x512, .f32⟩ : BufTy).Contents (Elt F)),
    StableHlo.nullary main_cst_1 (constant S_ .f32 0x00000000#32),
    StableHlo.unary main_cst_1 main_v21 (broadcastInDim S16x64x64x512 ![] bcast_S_S16x64x64x512 : (⟨S_, .f32⟩ : BufTy).Contents (Elt F) → (⟨S16x64x64x512, .f32⟩ : BufTy).Contents (Elt F)),
    StableHlo.binary main_v20 main_v21 main_v22 (cmpf .oge : (⟨S16x64x64x512, .f32⟩ : BufTy).Contents (Elt F) → (⟨S16x64x64x512, .f32⟩ : BufTy).Contents (Elt F) → (⟨S16x64x64x512, .i1⟩ : BufTy).Contents (Elt F)),
    StableHlo.nullary main_cst_2 (constant S_ .f32 0x3E4CCCCD#32),
    StableHlo.unary main_cst_2 main_v23 (broadcastInDim S16x64x64x512 ![] bcast_S_S16x64x64x512 : (⟨S_, .f32⟩ : BufTy).Contents (Elt F) → (⟨S16x64x64x512, .f32⟩ : BufTy).Contents (Elt F)),
    StableHlo.binary main_v23 main_v20 main_v24 (mulf : (⟨S16x64x64x512, .f32⟩ : BufTy).Contents (Elt F) → (⟨S16x64x64x512, .f32⟩ : BufTy).Contents (Elt F) → (⟨S16x64x64x512, .f32⟩ : BufTy).Contents (Elt F)),
    StableHlo.TRef.ternary (.of main_v22 : StableHlo.TRef sig ⟨S16x64x64x512, .i1⟩) (.of main_v20 : StableHlo.TRef sig ⟨S16x64x64x512, .f32⟩) (.of main_v24 : StableHlo.TRef sig ⟨S16x64x64x512, .f32⟩) main_call1.v0 select,
    StableHlo.nullary main_cst_3 (constant S_ .f32 0x00000000#32),
    StableHlo.binary main_v25 main_cst_3 main_v26 ((fun x v => Host.reduceAdd x v reducesTo_S16x64x64x512_S16x64x512_d2 h_S_) : (⟨S16x64x64x512, .f32⟩ : BufTy).Contents (Elt F) → (⟨S_, .f32⟩ : BufTy).Contents (Elt F) → (⟨S16x64x512, .f32⟩ : BufTy).Contents (Elt F)),
    StableHlo.binary main_arg0 main_v26 main_v27 ((fun a b => concatenate S16x64x1024 2 [⟨S16x64x512, a⟩, ⟨S16x64x512, b⟩] concatenates_S16x64x512_S16x64x512_S16x64x1024_d2) : (⟨S16x64x512, .f32⟩ : BufTy).Contents (Elt F) → (⟨S16x64x512, .f32⟩ : BufTy).Contents (Elt F) → (⟨S16x64x1024, .f32⟩ : BufTy).Contents (Elt F)),
    StableHlo.reshape main_v27 main_v28 rfl shapeCasts_S16x64x1024_S1024x1024,
    StableHlo.binary main_v28 main_arg5 main_v29 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    StableHlo.unary main_arg6 main_v30 (broadcastInDim S1x512 ![1] bcast_S512_S1x512_1 : (⟨S512, .f32⟩ : BufTy).Contents (Elt F) → (⟨S1x512, .f32⟩ : BufTy).Contents (Elt F)),
    StableHlo.unary main_v30 main_v31 (broadcastInDim S1024x512 ![0, 1] bcast_S1x512_S1024x512_0_1 : (⟨S1x512, .f32⟩ : BufTy).Contents (Elt F) → (⟨S1024x512, .f32⟩ : BufTy).Contents (Elt F)),
    StableHlo.binary main_v29 main_v31 main_v32 (addf : (⟨S1024x512, .f32⟩ : BufTy).Contents (Elt F) → (⟨S1024x512, .f32⟩ : BufTy).Contents (Elt F) → (⟨S1024x512, .f32⟩ : BufTy).Contents (Elt F)),
    StableHlo.nullary main_cst_4 (constant S_ .f32 0x00000000#32),
    StableHlo.binary main_v32 main_cst_4 main_v33 ((fun x v => Host.reduceAdd x v reducesTo_S1024x512_S512_d0 h_S_) : (⟨S1024x512, .f32⟩ : BufTy).Contents (Elt F) → (⟨S_, .f32⟩ : BufTy).Contents (Elt F) → (⟨S512, .f32⟩ : BufTy).Contents (Elt F)),
    StableHlo.nullary main_cst_5 (constant S_ .f32 0x44800000#32),
    StableHlo.unary main_cst_5 main_v34 (broadcastInDim S512 ![] bcast_S_S512 : (⟨S_, .f32⟩ : BufTy).Contents (Elt F) → (⟨S512, .f32⟩ : BufTy).Contents (Elt F)),
    StableHlo.binary main_v33 main_v34 main_v35 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call2.cst (constant S_ .f32 0x00000000#32),
    StableHlo.TRef.binary (.of main_v32 : StableHlo.TRef sig ⟨S1024x512, .f32⟩) main_call2.cst main_call2.v0 (fun x v => Host.reduceAdd x v reducesTo_S1024x512_S512_d0 h_S_),
    StableHlo.TRef.unary main_call2.v0 main_call2.v1 (broadcastInDim S1x512 ![1] bcast_S512_S1x512_1),
    StableHlo.TRef.nullary main_call2.cst_0 (constant S_ .f32 0x44800000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S1024x512 ![0, 1] bcast_S1x512_S1024x512_0_1),
    StableHlo.TRef.binary (.of main_v32 : StableHlo.TRef sig ⟨S1024x512, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x44800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S1024x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v35 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S1024x512 ![0, 1] bcast_S1x512_S1024x512_0_1 : (⟨S1x512, .f32⟩ : BufTy).Contents (Elt F) → (⟨S1024x512, .f32⟩ : BufTy).Contents (Elt F)),
    StableHlo.binary main_v32 main_v38 main_v39 (subf : (⟨S1024x512, .f32⟩ : BufTy).Contents (Elt F) → (⟨S1024x512, .f32⟩ : BufTy).Contents (Elt F) → (⟨S1024x512, .f32⟩ : BufTy).Contents (Elt F)),
    StableHlo.nullary main_cst_6 (constant S_ .f32 0x3727C5AC#32),
    StableHlo.unary main_cst_6 main_v40 (broadcastInDim S512 ![] bcast_S_S512 : (⟨S_, .f32⟩ : BufTy).Contents (Elt F) → (⟨S512, .f32⟩ : BufTy).Contents (Elt F)),
    StableHlo.binary main_v36 main_v40 main_v41 (addf : (⟨S512, .f32⟩ : BufTy).Contents (Elt F) → (⟨S512, .f32⟩ : BufTy).Contents (Elt F) → (⟨S512, .f32⟩ : BufTy).Contents (Elt F)),
    StableHlo.unary main_v41 main_v42 (Host.rsqrt : (⟨S512, .f32⟩ : BufTy).Contents (Elt F) → (⟨S512, .f32⟩ : BufTy).Contents (Elt F)),
    StableHlo.unary main_v42 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S1024x512 ![0, 1] bcast_S1x512_S1024x512_0_1 : (⟨S1x512, .f32⟩ : BufTy).Contents (Elt F) → (⟨S1024x512, .f32⟩ : BufTy).Contents (Elt F)),
    StableHlo.binary main_v39 main_v44 main_v45 (mulf : (⟨S1024x512, .f32⟩ : BufTy).Contents (Elt F) → (⟨S1024x512, .f32⟩ : BufTy).Contents (Elt F) → (⟨S1024x512, .f32⟩ : BufTy).Contents (Elt F)),
    StableHlo.unary main_arg7 main_v46 (broadcastInDim S1x512 ![1] bcast_S512_S1x512_1 : (⟨S512, .f32⟩ : BufTy).Contents (Elt F) → (⟨S1x512, .f32⟩ : BufTy).Contents (Elt F)),
    StableHlo.unary main_v46 main_v47 (broadcastInDim S1024x512 ![0, 1] bcast_S1x512_S1024x512_0_1 : (⟨S1x512, .f32⟩ : BufTy).Contents (Elt F) → (⟨S1024x512, .f32⟩ : BufTy).Contents (Elt F)),
    StableHlo.binary main_v45 main_v47 main_v48 (mulf : (⟨S1024x512, .f32⟩ : BufTy).Contents (Elt F) → (⟨S1024x512, .f32⟩ : BufTy).Contents (Elt F) → (⟨S1024x512, .f32⟩ : BufTy).Contents (Elt F)),
    StableHlo.unary main_arg8 main_v49 (broadcastInDim S1x512 ![1] bcast_S512_S1x512_1 : (⟨S512, .f32⟩ : BufTy).Contents (Elt F) → (⟨S1x512, .f32⟩ : BufTy).Contents (Elt F)),
    StableHlo.unary main_v49 main_v50 (broadcastInDim S1024x512 ![0, 1] bcast_S1x512_S1024x512_0_1 : (⟨S1x512, .f32⟩ : BufTy).Contents (Elt F) → (⟨S1024x512, .f32⟩ : BufTy).Contents (Elt F)),
    StableHlo.binary main_v48 main_v50 main_v51 (addf : (⟨S1024x512, .f32⟩ : BufTy).Contents (Elt F) → (⟨S1024x512, .f32⟩ : BufTy).Contents (Elt F) → (⟨S1024x512, .f32⟩ : BufTy).Contents (Elt F)),
    StableHlo.nullary main_cst_7 (constant S_ .f32 0x00000000#32),
    StableHlo.unary main_cst_7 main_v52 (broadcastInDim S1024x512 ![] bcast_S_S1024x512 : (⟨S_, .f32⟩ : BufTy).Contents (Elt F) → (⟨S1024x512, .f32⟩ : BufTy).Contents (Elt F)),
    StableHlo.binary main_v51 main_v52 main_v53 (cmpf .oge : (⟨S1024x512, .f32⟩ : BufTy).Contents (Elt F) → (⟨S1024x512, .f32⟩ : BufTy).Contents (Elt F) → (⟨S1024x512, .i1⟩ : BufTy).Contents (Elt F)),
    StableHlo.nullary main_cst_8 (constant S_ .f32 0x3E4CCCCD#32),
    StableHlo.unary main_cst_8 main_v54 (broadcastInDim S1024x512 ![] bcast_S_S1024x512 : (⟨S_, .f32⟩ : BufTy).Contents (Elt F) → (⟨S1024x512, .f32⟩ : BufTy).Contents (Elt F)),
    StableHlo.binary main_v54 main_v51 main_v55 (mulf : (⟨S1024x512, .f32⟩ : BufTy).Contents (Elt F) → (⟨S1024x512, .f32⟩ : BufTy).Contents (Elt F) → (⟨S1024x512, .f32⟩ : BufTy).Contents (Elt F)),
    StableHlo.TRef.ternary (.of main_v53 : StableHlo.TRef sig ⟨S1024x512, .i1⟩) (.of main_v51 : StableHlo.TRef sig ⟨S1024x512, .f32⟩) (.of main_v55 : StableHlo.TRef sig ⟨S1024x512, .f32⟩) main_call3.v0 select,
    StableHlo.reshape main_v56 main_v57 rfl shapeCasts_S1024x512_S16x64x512 ]

set_option maxRecDepth 8192 in
set_option maxHeartbeats 4000000 in
/-- @main is that straight line: the functions' definitions unfolded at their calls and the records at their
    fields, both sides are one chain of steps once sequencing is reassociated. -/
theorem main_eq (c : Dev nD) : main (F := F) c = seq ops := by
  simp only [main, main_part0, main_part1, fn_where.body, fn_where_0.body, fn_var.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., unary_bufs_sub .., binary_bufs_sub .., unary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., binary_bufs_sub .., binary_bufs_sub .., reshape_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., reshape_bufs_sub ..⟩

/-- From any memory with zero counters: every weakly fair execution of @main on the TensorCores terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- The fold at the result buffer is the stage composition: each operation's result at the buffer it writes is its
    function of the operands' contents and at every other buffer what was there, so reading the result buffer back
    through the ninety operations composes their functions in order; the stages are that composition, term for term. -/
theorem out_eq (V : Valuation τ sig (Elt F)) :
    after ops V (main_v57 : DevRef τ sig)
      = rOut (rY (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig))) (V (main_arg7 : DevRef τ sig)) (V (main_arg8 : DevRef τ sig)) := by
  after_results_simp
  rfl

set_option maxRecDepth 8192 in
set_option maxHeartbeats 4000000 in
/-- No operation writes argument 0's buffer: the fold leaves it at its launch contents. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1's buffer: the fold leaves it at its launch contents. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2's buffer: the fold leaves it at its launch contents. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3's buffer: the fold leaves it at its launch contents. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4's buffer: the fold leaves it at its launch contents. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5's buffer: the fold leaves it at its launch contents. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6's buffer: the fold leaves it at its launch contents. -/
theorem arg6_eq (V : Valuation τ sig (Elt F)) :
    after ops V (main_arg6 : DevRef τ sig) = V (main_arg6 : DevRef τ sig) := by
  after_results_simp

set_option maxRecDepth 8192 in
set_option maxHeartbeats 4000000 in
/-- No operation writes argument 7's buffer: the fold leaves it at its launch contents. -/
theorem arg7_eq (V : Valuation τ sig (Elt F)) :
    after ops V (main_arg7 : DevRef τ sig) = V (main_arg7 : DevRef τ sig) := by
  after_results_simp

set_option maxRecDepth 8192 in
set_option maxHeartbeats 4000000 in
/-- No operation writes argument 8's buffer: the fold leaves it at its launch contents. -/
theorem arg8_eq (V : Valuation τ sig (Elt F)) :
    after ops V (main_arg8 : DevRef τ sig) = V (main_arg8 : DevRef τ sig) := by
  after_results_simp

/-- Every weakly fair execution of the reference's @main terminates with the result buffer at the stage composition of
    the nine arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v57)
        = rOut (rY (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v57).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_main m ρ)

end Cert.ReferenceIdeal.RefValue

end
-- ==== Proof.RefReadY.lean ====
/- The fused linear layer of the reference read at a row and a feature. -/
import proofs.«415910_j38972533243937_3_alg».proof.Proof.RefTerm
import proofs.«415910_j38972533243937_3_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Facts₀

variable [Facts]

namespace Y

/-! ### The projection of the node features -/

theorem proj_lhs_0 (j : S16x64x512.Idx) (k : (dot_S16x64x512_S512x512_S16x64x512_2_0_01_1_n_n).contr.Idx) :
    ((dot_S16x64x512_S512x512_S16x64x512_2_0_01_1_n_n).lhsIdx j k 0).val = (j 0).val := rfl
theorem proj_lhs_1 (j : S16x64x512.Idx) (k : (dot_S16x64x512_S512x512_S16x64x512_2_0_01_1_n_n).contr.Idx) :
    ((dot_S16x64x512_S512x512_S16x64x512_2_0_01_1_n_n).lhsIdx j k 1).val = (j 1).val := rfl
theorem proj_lhs_2 (j : S16x64x512.Idx) (k : (dot_S16x64x512_S512x512_S16x64x512_2_0_01_1_n_n).contr.Idx) :
    ((dot_S16x64x512_S512x512_S16x64x512_2_0_01_1_n_n).lhsIdx j k 2).val = (k ⟨0, Nat.one_pos⟩).val :=
  (dot_S16x64x512_S512x512_S16x64x512_2_0_01_1_n_n).lhsIdx_val_of_single rfl j k
theorem proj_rhs_0 (j : S16x64x512.Idx) (k : (dot_S16x64x512_S512x512_S16x64x512_2_0_01_1_n_n).contr.Idx) :
    ((dot_S16x64x512_S512x512_S16x64x512_2_0_01_1_n_n).rhsIdx j k 0).val = (k ⟨0, Nat.one_pos⟩).val :=
  (dot_S16x64x512_S512x512_S16x64x512_2_0_01_1_n_n).rhsIdx_val_of_single rfl j k
theorem proj_rhs_1 (j : S16x64x512.Idx) (k : (dot_S16x64x512_S512x512_S16x64x512_2_0_01_1_n_n).contr.Idx) :
    ((dot_S16x64x512_S512x512_S16x64x512_2_0_01_1_n_n).rhsIdx j k 1).val = (j 2).val := rfl

/-- The projection at graph b, node i, feature d: the sum over the 512 input features. -/
theorem rProj_apply (X : FVec Ideal S16x64x512 .f32) (W : FVec Ideal S512x512 .f32) (b : Fin 16) (i : Fin 64) (d : Fin 512) :
    rProj (F := Ideal) X W (ix3 b i d) = ∑ c : Fin 512, X (ix3 b i c) * W (ix2 c d) := by
  unfold rProj
  simp only [Host.dotGeneral]
  refine (Ideal.dotGeneral_apply _ _ _ X W (ix3 b i d)).trans ?_
  refine (Equiv.sum_comp (contrEquiv1 dot_S16x64x512_S512x512_S16x64x512_2_0_01_1_n_n 512 rfl rfl).symm _).symm.trans ?_
  refine Finset.sum_congr rfl (fun c _ => ?_)
  have hk := contrEquiv1_symm_val dot_S16x64x512_S512x512_S16x64x512_2_0_01_1_n_n 512 rfl rfl c
  congr 1
  · refine congrArg X (funext fun a => Fin.ext ?_)
    match a with
    | ⟨0, _⟩ => exact proj_lhs_0 _ _
    | ⟨1, _⟩ => exact proj_lhs_1 _ _
    | ⟨2, _⟩ => exact (proj_lhs_2 _ _).trans hk
  · refine congrArg W (funext fun a => Fin.ext ?_)
    match a with
    | ⟨0, _⟩ => exact (proj_rhs_0 _ _).trans hk
    | ⟨1, _⟩ => exact proj_rhs_1 _ _

/-! ### The leaky unit and the bias broadcast, at an index -/

/-- The leaky unit acts on each element. -/
theorem rLeaky4_apply (x : FVec Ideal S16x64x64x512 .f32) (b : Fin 16) (i j : Fin 64) (c : Fin 512) :
    rLeaky4 (F := Ideal) x (ix4 b i j c) = Cert.Spec.lk (x (ix4 b i j c)) := by
  unfold rLeaky4
  rw [select_apply, cmpf_apply, mulf_apply,
    broadcastInDim_apply ![] bcast_S_S16x64x64x512 (constant (F := Ideal) S_ .f32 0x00000000#32) (ix4 b i j c) ix0 (fun a => a.elim0),
    broadcastInDim_apply ![] bcast_S_S16x64x64x512 (constant (F := Ideal) S_ .f32 0x3E4CCCCD#32) (ix4 b i j c) ix0 (fun a => a.elim0)]
  rfl

/-- A bias broadcast along the last axis reads the bias at the feature. -/
theorem rBias4_apply (v : FVec Ideal S512 .f32) (b : Fin 16) (i j : Fin 64) (c : Fin 512) :
    rBias4 (F := Ideal) v (ix4 b i j c) = v (ix1 c) := by
  unfold rBias4
  rw [broadcastInDim_apply ![0, 1, 2, 3] bcast_S1x1x1x512_S16x64x64x512_0_1_2_3 _ (ix4 b i j c)
      (ix4 (0 : Fin 1) (0 : Fin 1) (0 : Fin 1) c) (fun a => by
        match a with
        | ⟨0, _⟩ => rfl
        | ⟨1, _⟩ => rfl
        | ⟨2, _⟩ => rfl
        | ⟨3, _⟩ => rfl),
    broadcastInDim_apply ![3] bcast_S512_S1x1x1x512_3 v (ix4 (0 : Fin 1) (0 : Fin 1) (0 : Fin 1) c) (ix1 c) (fun a => by
        match a with
        | ⟨0, _⟩ => rfl)]

/-! ### The first relation layer -/

theorem rH1_apply (X : FVec Ideal S16x64x512 .f32) (W1 : FVec Ideal S1024x512 .f32) (b1 : FVec Ideal S512 .f32)
    (b : Fin 16) (i j : Fin 64) (c : Fin 512) :
    rH1 (F := Ideal) X W1 b1 (ix4 b i j c)
      = Cert.Spec.h1 X (extractStridedSlice S512x512 ![0, 0] W1 slices_S1024x512_S512x512_0_0)
          (extractStridedSlice S512x512 ![512, 0] W1 slices_S1024x512_S512x512_512_0) b1 b i j c := by
  unfold rH1
  rw [rLeaky4_apply, addf_apply, addf_apply, rBias4_apply,
    broadcastInDim_apply ![0, 1, 2, 3] bcast_S16x64x1x512_S16x64x64x512_0_1_2_3 _ (ix4 b i j c) (ix4 b i (0 : Fin 1) c) (fun a => by
        match a with
        | ⟨0, _⟩ => rfl
        | ⟨1, _⟩ => rfl
        | ⟨2, _⟩ => rfl
        | ⟨3, _⟩ => rfl),
    broadcastInDim_apply ![0, 1, 3] bcast_S16x64x512_S16x64x1x512_0_1_3 _ (ix4 b i (0 : Fin 1) c) (ix3 b i c) (fun a => by
        match a with
        | ⟨0, _⟩ => rfl
        | ⟨1, _⟩ => rfl
        | ⟨2, _⟩ => rfl),
    broadcastInDim_apply ![0, 1, 2, 3] bcast_S16x1x64x512_S16x64x64x512_0_1_2_3 _ (ix4 b i j c) (ix4 b (0 : Fin 1) j c) (fun a => by
        match a with
        | ⟨0, _⟩ => rfl
        | ⟨1, _⟩ => rfl
        | ⟨2, _⟩ => rfl
        | ⟨3, _⟩ => rfl),
    broadcastInDim_apply ![0, 2, 3] bcast_S16x64x512_S16x1x64x512_0_2_3 _ (ix4 b (0 : Fin 1) j c) (ix3 b j c) (fun a => by
        match a with
        | ⟨0, _⟩ => rfl
        | ⟨1, _⟩ => rfl
        | ⟨2, _⟩ => rfl),
    rProj_apply, rProj_apply]
  rfl

/-! ### The second relation layer -/

theorem h2_lhs_0 (j : S16x64x64x512.Idx) (k : (dot_S16x64x64x512_S512x512_S16x64x64x512_3_0_012_1_n_n).contr.Idx) :
    ((dot_S16x64x64x512_S512x512_S16x64x64x512_3_0_012_1_n_n).lhsIdx j k 0).val = (j 0).val := rfl
theorem h2_lhs_1 (j : S16x64x64x512.Idx) (k : (dot_S16x64x64x512_S512x512_S16x64x64x512_3_0_012_1_n_n).contr.Idx) :
    ((dot_S16x64x64x512_S512x512_S16x64x64x512_3_0_012_1_n_n).lhsIdx j k 1).val = (j 1).val := rfl
theorem h2_lhs_2 (j : S16x64x64x512.Idx) (k : (dot_S16x64x64x512_S512x512_S16x64x64x512_3_0_012_1_n_n).contr.Idx) :
    ((dot_S16x64x64x512_S512x512_S16x64x64x512_3_0_012_1_n_n).lhsIdx j k 2).val = (j 2).val := rfl
theorem h2_lhs_3 (j : S16x64x64x512.Idx) (k : (dot_S16x64x64x512_S512x512_S16x64x64x512_3_0_012_1_n_n).contr.Idx) :
    ((dot_S16x64x64x512_S512x512_S16x64x64x512_3_0_012_1_n_n).lhsIdx j k 3).val = (k ⟨0, Nat.one_pos⟩).val :=
  (dot_S16x64x64x512_S512x512_S16x64x64x512_3_0_012_1_n_n).lhsIdx_val_of_single rfl j k
theorem h2_rhs_0 (j : S16x64x64x512.Idx) (k : (dot_S16x64x64x512_S512x512_S16x64x64x512_3_0_012_1_n_n).contr.Idx) :
    ((dot_S16x64x64x512_S512x512_S16x64x64x512_3_0_012_1_n_n).rhsIdx j k 0).val = (k ⟨0, Nat.one_pos⟩).val :=
  (dot_S16x64x64x512_S512x512_S16x64x64x512_3_0_012_1_n_n).rhsIdx_val_of_single rfl j k
theorem h2_rhs_1 (j : S16x64x64x512.Idx) (k : (dot_S16x64x64x512_S512x512_S16x64x64x512_3_0_012_1_n_n).contr.Idx) :
    ((dot_S16x64x64x512_S512x512_S16x64x64x512_3_0_012_1_n_n).rhsIdx j k 1).val = (j 3).val := rfl

/-- The pair features through the second weight matrix: the sum over the 512 hidden features. -/
theorem dotH2_apply (h : FVec Ideal S16x64x64x512 .f32) (W2 : FVec Ideal S512x512 .f32) (b : Fin 16) (i j : Fin 64) (d : Fin 512) :
    Host.dotGeneral (F := Ideal) dot_S16x64x64x512_S512x512_S16x64x64x512_3_0_012_1_n_n none h W2 (ix4 b i j d)
      = ∑ c : Fin 512, h (ix4 b i j c) * W2 (ix2 c d) := by
  simp only [Host.dotGeneral]
  refine (Ideal.dotGeneral_apply _ _ _ h W2 (ix4 b i j d)).trans ?_
  refine (Equiv.sum_comp (contrEquiv1 dot_S16x64x64x512_S512x512_S16x64x64x512_3_0_012_1_n_n 512 rfl rfl).symm _).symm.trans ?_
  refine Finset.sum_congr rfl (fun c _ => ?_)
  have hk := contrEquiv1_symm_val dot_S16x64x64x512_S512x512_S16x64x64x512_3_0_012_1_n_n 512 rfl rfl c
  congr 1
  · refine congrArg h (funext fun a => Fin.ext ?_)
    match a with
    | ⟨0, _⟩ => exact h2_lhs_0 _ _
    | ⟨1, _⟩ => exact h2_lhs_1 _ _
    | ⟨2, _⟩ => exact h2_lhs_2 _ _
    | ⟨3, _⟩ => exact (h2_lhs_3 _ _).trans hk
  · refine congrArg W2 (funext fun a => Fin.ext ?_)
    match a with
    | ⟨0, _⟩ => exact (h2_rhs_0 _ _).trans hk
    | ⟨1, _⟩ => exact h2_rhs_1 _ _

theorem rH2_apply (h : FVec Ideal S16x64x64x512 .f32) (W2 : FVec Ideal S512x512 .f32) (b2 : FVec Ideal S512 .f32)
    (b : Fin 16) (i j : Fin 64) (d : Fin 512) :
    rH2 (F := Ideal) h W2 b2 (ix4 b i j d)
      = Cert.Spec.lk ((∑ c : Fin 512, h (ix4 b i j c) * W2 (ix2 c d)) + b2 (ix1 d)) := by
  unfold rH2
  rw [rLeaky4_apply, addf_apply, rBias4_apply, dotH2_apply]

/-! ### The sum over the partner node -/

theorem rMsg_apply (h : FVec Ideal S16x64x64x512 .f32) (b : Fin 16) (i : Fin 64) (d : Fin 512) :
    rMsg (F := Ideal) h (ix3 b i d) = ∑ j : Fin 64, h (ix4 b i j d) := by
  unfold rMsg Host.reduceAdd
  have hR : Shape.Reduces S16x64x64x512 [2] S16x64x512 := by decide
  refine (Ideal.hostReduceAdd_single reducesTo_S16x64x64x512_S16x64x512_d2 hR h _ (ix3 b i d)).trans ?_
  show Ideal.ofBits .f32 0x00000000#32 + ∑ k : Fin 64, h (hR.lift (ix3 b i d) k) = _
  rw [Ideal.ofBits_zero_f32, zero_add]
  refine Finset.sum_congr rfl (fun k _ => congrArg h (funext fun a => Fin.ext ?_))
  match a with
  | ⟨0, _⟩ => rfl
  | ⟨1, _⟩ => rfl
  | ⟨2, _⟩ => rfl
  | ⟨3, _⟩ => rfl

/-- The message of the reference is the specification's. -/
theorem rMsg_rH2_rH1_apply (X : FVec Ideal S16x64x512 .f32) (W1 : FVec Ideal S1024x512 .f32) (b1 : FVec Ideal S512 .f32)
    (W2 : FVec Ideal S512x512 .f32) (b2 : FVec Ideal S512 .f32) (b : Fin 16) (i : Fin 64) (d : Fin 512) :
    rMsg (F := Ideal) (rH2 (rH1 X W1 b1) W2 b2) (ix3 b i d)
      = Cert.Spec.msg X (extractStridedSlice S512x512 ![0, 0] W1 slices_S1024x512_S512x512_0_0)
          (extractStridedSlice S512x512 ![512, 0] W1 slices_S1024x512_S512x512_512_0) b1 W2 b2 b i d := by
  rw [rMsg_apply]
  unfold Cert.Spec.msg Cert.Spec.h2
  refine Finset.sum_congr rfl (fun j _ => ?_)
  rw [rH2_apply]
  refine congrArg (fun t => Cert.Spec.lk (t + b2 (ix1 d))) ?_
  refine Finset.sum_congr rfl (fun c _ => ?_)
  rw [rH1_apply]

/-! ### The fused linear layer -/

theorem rBias2_apply (v : FVec Ideal S512 .f32) (r : Fin 1024) (d : Fin 512) :
    rBias2 (F := Ideal) v (ix2 r d) = v (ix1 d) := by
  unfold rBias2
  rw [broadcastInDim_apply ![0, 1] bcast_S1x512_S1024x512_0_1 _ (ix2 r d) (ix2 (0 : Fin 1) d) (fun a => by
        match a with
        | ⟨0, _⟩ => rfl
        | ⟨1, _⟩ => rfl),
    broadcastInDim_apply ![1] bcast_S512_S1x512_1 v (ix2 (0 : Fin 1) d) (ix1 d) (fun a => by
        match a with
        | ⟨0, _⟩ => rfl)]

theorem y_lhs_0 (j : S1024x512.Idx) (k : (dot_S1024x1024_S1024x512_S1024x512_1_0_0_1_n_n).contr.Idx) :
    ((dot_S1024x1024_S1024x512_S1024x512_1_0_0_1_n_n).lhsIdx j k 0).val = (j 0).val := rfl
theorem y_lhs_1 (j : S1024x512.Idx) (k : (dot_S1024x1024_S1024x512_S1024x512_1_0_0_1_n_n).contr.Idx) :
    ((dot_S1024x1024_S1024x512_S1024x512_1_0_0_1_n_n).lhsIdx j k 1).val = (k ⟨0, Nat.one_pos⟩).val :=
  (dot_S1024x1024_S1024x512_S1024x512_1_0_0_1_n_n).lhsIdx_val_of_single rfl j k
theorem y_rhs_0 (j : S1024x512.Idx) (k : (dot_S1024x1024_S1024x512_S1024x512_1_0_0_1_n_n).contr.Idx) :
    ((dot_S1024x1024_S1024x512_S1024x512_1_0_0_1_n_n).rhsIdx j k 0).val = (k ⟨0, Nat.one_pos⟩).val :=
  (dot_S1024x1024_S1024x512_S1024x512_1_0_0_1_n_n).rhsIdx_val_of_single rfl j k
theorem y_rhs_1 (j : S1024x512.Idx) (k : (dot_S1024x1024_S1024x512_S1024x512_1_0_0_1_n_n).contr.Idx) :
    ((dot_S1024x1024_S1024x512_S1024x512_1_0_0_1_n_n).rhsIdx j k 1).val = (j 1).val := rfl

/-- The flattened rows through the fused weight matrix: the sum over its 1024 input features. -/
theorem dotY_apply (Z : FVec Ideal S1024x1024 .f32) (Wf : FVec Ideal S1024x512 .f32) (r : Fin 1024) (d : Fin 512) :
    Host.dotGeneral (F := Ideal) dot_S1024x1024_S1024x512_S1024x512_1_0_0_1_n_n none Z Wf (ix2 r d)
      = ∑ k : Fin 1024, Z (ix2 r k) * Wf (ix2 k d) := by
  simp only [Host.dotGeneral]
  refine (Ideal.dotGeneral_apply _ _ _ Z Wf (ix2 r d)).trans ?_
  refine (Equiv.sum_comp (contrEquiv1 dot_S1024x1024_S1024x512_S1024x512_1_0_0_1_n_n 1024 rfl rfl).symm _).symm.trans ?_
  refine Finset.sum_congr rfl (fun c _ => ?_)
  have hk := contrEquiv1_symm_val dot_S1024x1024_S1024x512_S1024x512_1_0_0_1_n_n 1024 rfl rfl c
  congr 1
  · refine congrArg Z (funext fun a => Fin.ext ?_)
    match a with
    | ⟨0, _⟩ => exact y_lhs_0 _ _
    | ⟨1, _⟩ => exact (y_lhs_1 _ _).trans hk
  · refine congrArg Wf (funext fun a => Fin.ext ?_)
    match a with
    | ⟨0, _⟩ => exact (y_rhs_0 _ _).trans hk
    | ⟨1, _⟩ => exact y_rhs_1 _ _

/-- A sum over 1024 = 512 + 512 terms is the sum of its two halves. -/
theorem sum_halves (f : Fin 1024 → EReal) :
    ∑ k : Fin 1024, f k
      = ∑ c : Fin 512, f ⟨c.val, Nat.lt_of_lt_of_le c.isLt (by decide)⟩
        + ∑ c : Fin 512, f ⟨512 + c.val, by have := c.isLt; omega⟩ :=
  Fin.sum_univ_add (a := 512) (b := 512) f

/-- Row r of the flattened concatenation, left half: the node features of node (r / 64, r % 64). -/
theorem flat_left (X M : FVec Ideal S16x64x512 .f32) (r : Fin 1024) (c : Fin 512) (hc : c.val < 1024) :
    shapeCast S1024x1024
        (concatenate S16x64x1024 2 [⟨S16x64x512, X⟩, ⟨S16x64x512, M⟩] concatenates_S16x64x512_S16x64x512_S16x64x1024_d2)
        shapeCasts_S16x64x1024_S1024x1024 (ix2 r (⟨c.val, hc⟩ : Fin 1024))
      = X (ix3 (Cert.Spec.rdiv r) (Cert.Spec.rmod r) c) := by
  refine (shapeCast_apply _ shapeCasts_S16x64x1024_S1024x1024 (ix2 r (⟨c.val, hc⟩ : Fin 1024))
    (ix3 (Cert.Spec.rdiv r) (Cert.Spec.rmod r) (⟨c.val, hc⟩ : Fin 1024)) ?_).trans ?_
  · rw [Shape.rowMajor_val_three, Shape.rowMajor_val_two]
    show (r.val / 64 * 64 + r.val % 64) * 1024 + c.val = r.val * 1024 + c.val
    omega
  · exact concatenate_pair_apply_left (2 : Fin 3) X M concatenates_S16x64x512_S16x64x512_S16x64x1024_d2
      (ix3 (Cert.Spec.rdiv r) (Cert.Spec.rmod r) (⟨c.val, hc⟩ : Fin 1024)) rfl (ix3 (Cert.Spec.rdiv r) (Cert.Spec.rmod r) c)
      (fun a => by
        match a with
        | ⟨0, _⟩ => rfl
        | ⟨1, _⟩ => rfl
        | ⟨2, _⟩ => rfl)

/-- Row r of the flattened concatenation, right half: the message of node (r / 64, r % 64). -/
theorem flat_right (X M : FVec Ideal S16x64x512 .f32) (r : Fin 1024) (c : Fin 512) (hc : 512 + c.val < 1024) :
    shapeCast S1024x1024
        (concatenate S16x64x1024 2 [⟨S16x64x512, X⟩, ⟨S16x64x512, M⟩] concatenates_S16x64x512_S16x64x512_S16x64x1024_d2)
        shapeCasts_S16x64x1024_S1024x1024 (ix2 r (⟨512 + c.val, hc⟩ : Fin 1024))
      = M (ix3 (Cert.Spec.rdiv r) (Cert.Spec.rmod r) c) := by
  refine (shapeCast_apply _ shapeCasts_S16x64x1024_S1024x1024 (ix2 r (⟨512 + c.val, hc⟩ : Fin 1024))
    (ix3 (Cert.Spec.rdiv r) (Cert.Spec.rmod r) (⟨512 + c.val, hc⟩ : Fin 1024)) ?_).trans ?_
  · rw [Shape.rowMajor_val_three, Shape.rowMajor_val_two]
    show (r.val / 64 * 64 + r.val % 64) * 1024 + (512 + c.val) = r.val * 1024 + (512 + c.val)
    omega
  · exact concatenate_pair_apply_right (2 : Fin 3) X M concatenates_S16x64x512_S16x64x512_S16x64x1024_d2
      (ix3 (Cert.Spec.rdiv r) (Cert.Spec.rmod r) (⟨512 + c.val, hc⟩ : Fin 1024)) rfl rfl (ix3 (Cert.Spec.rdiv r) (Cert.Spec.rmod r) c)
      (fun a ha => by
        match a with
        | ⟨0, _⟩ => rfl
        | ⟨1, _⟩ => rfl
        | ⟨2, _⟩ => exact absurd rfl ha)
      (by show c.val + 512 = 512 + c.val; omega)

/-- The top half of a [1024, 512] matrix. -/
theorem top_apply (W : FVec Ideal S1024x512 .f32) (c d : Fin 512) (hc : c.val < 1024) :
    extractStridedSlice S512x512 ![0, 0] W slices_S1024x512_S512x512_0_0 (ix2 c d) = W (ix2 (⟨c.val, hc⟩ : Fin 1024) d) :=
  extractStridedSlice_apply ![0, 0] W slices_S1024x512_S512x512_0_0 (ix2 c d) (ix2 (⟨c.val, hc⟩ : Fin 1024) d) (fun a => by
    match a with
    | ⟨0, _⟩ => exact (Nat.zero_add _).symm
    | ⟨1, _⟩ => exact (Nat.zero_add _).symm)

/-- The bottom half of a [1024, 512] matrix. -/
theorem bottom_apply (W : FVec Ideal S1024x512 .f32) (c d : Fin 512) (hc : 512 + c.val < 1024) :
    extractStridedSlice S512x512 ![512, 0] W slices_S1024x512_S512x512_512_0 (ix2 c d) = W (ix2 (⟨512 + c.val, hc⟩ : Fin 1024) d) :=
  extractStridedSlice_apply ![512, 0] W slices_S1024x512_S512x512_512_0 (ix2 c d) (ix2 (⟨512 + c.val, hc⟩ : Fin 1024) d) (fun a => by
    match a with
    | ⟨0, _⟩ => rfl
    | ⟨1, _⟩ => exact (Nat.zero_add _).symm)

end Y

open Y in
/-- The fused linear layer of the reference at row r and feature d is the specification's pre-normalization
    feature of node (r / 64, r % 64): the 1024 contracted features split into the node's own 512 and its
    message's 512, against the top and the bottom half of the fused weight matrix. -/
theorem rY_apply (X : FVec Ideal S16x64x512 .f32) (W1 : FVec Ideal S1024x512 .f32) (b1 : FVec Ideal S512 .f32)
    (W2 : FVec Ideal S512x512 .f32) (b2 : FVec Ideal S512 .f32) (Wf : FVec Ideal S1024x512 .f32) (bf : FVec Ideal S512 .f32)
    (r : Fin 1024) (d : Fin 512) :
    rY (F := Ideal) X W1 b1 W2 b2 Wf bf (ix2 r d)
      = Cert.Spec.ypre X (extractStridedSlice S512x512 ![0, 0] W1 slices_S1024x512_S512x512_0_0)
          (extractStridedSlice S512x512 ![512, 0] W1 slices_S1024x512_S512x512_512_0) b1 W2 b2
          (extractStridedSlice S512x512 ![0, 0] Wf slices_S1024x512_S512x512_0_0)
          (extractStridedSlice S512x512 ![512, 0] Wf slices_S1024x512_S512x512_512_0) bf
          (Cert.Spec.rdiv r) (Cert.Spec.rmod r) d := by
  unfold rY
  rw [addf_apply, rBias2_apply, dotY_apply, sum_halves]
  unfold Cert.Spec.ypre Cert.Spec.proj
  refine congrArg (fun t => t + bf (ix1 d)) ?_
  congr 1
  · refine Finset.sum_congr rfl (fun c _ => ?_)
    rw [flat_left, top_apply]
  · refine Finset.sum_congr rfl (fun c _ => ?_)
    rw [flat_right, bottom_apply, rMsg_rH2_rH1_apply]

end Cert.ReferenceIdeal.RefValue

end
-- ==== Proof.RefReadBN.lean ====
/- The reference's normalization tail read at a graph, a node and a feature. -/
import proofs.«415910_j38972533243937_3_alg».proof.Proof.RefTerm
import proofs.«415910_j38972533243937_3_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Facts₀

variable [Facts]

/-- The reshape of the 1024 rows into 16 graphs of 64 nodes reads row `b · 64 + i`: both row-major offsets are
    `(b · 64 + i) · 512 + d`. -/
theorem shapeCast_rows_apply (x : FVec Ideal S1024x512 .f32) (b : Fin 16) (i : Fin 64) (d : Fin 512) :
    shapeCast S16x64x512 x shapeCasts_S1024x512_S16x64x512 (ix3 b i d) = x (ix2 (Cert.Spec.row b i) d) := by
  refine shapeCast_apply x _ (ix3 b i d) (ix2 (Cert.Spec.row b i) d) ?_
  rw [Shape.rowMajor_val_two, Shape.rowMajor_val_three]
  rfl

/-- A rank-0 array broadcast to any shape reads its one element everywhere. -/
theorem bcast0_apply {α : Type} {t : Shape} (h : S_.BroadcastsInDim t (![] : Fin 0 → Fin t.rank)) (c : S_.Idx → α) (j : t.Idx) :
    broadcastInDim t ![] h c j = c ix0 :=
  broadcastInDim_apply _ h c j ix0 (fun a => a.elim0)

/-- The leaky unit on the rows, at one entry. -/
theorem rLeaky2_apply (x : FVec Ideal S1024x512 .f32) (r : Fin 1024) (d : Fin 512) :
    rLeaky2 (F := Ideal) x (ix2 r d) = Cert.Spec.lk (x (ix2 r d)) := by
  unfold rLeaky2 Cert.Spec.lk
  rw [select_apply, cmpf_apply, mulf_apply, bcast0_apply, bcast0_apply]
  rfl

/-- A [512] vector laid along the rows reads its feature's entry at every row. -/
theorem rBias2_apply (v : FVec Ideal S512 .f32) (r : Fin 1024) (d : Fin 512) :
    rBias2 (F := Ideal) v (ix2 r d) = v (ix1 d) := by
  unfold rBias2
  refine (broadcastInDim_apply _ _ _ (ix2 r d) (ix2 (0 : Fin 1) d) ?_).trans ?_
  · intro a
    match a with
    | ⟨0, _⟩ => rfl
    | ⟨1, _⟩ => rfl
  · refine broadcastInDim_apply _ _ _ (ix2 (0 : Fin 1) d) (ix1 d) ?_
    intro a
    match a with
    | ⟨0, _⟩ => rfl

/-- The inserted index of the reduction over the rows: feature `d` with row `k` put in front. -/
theorem lift_rows (hR : Shape.Reduces S1024x512 [0] S512) (d : Fin 512) (k : Fin 1024) :
    hR.lift (ix1 d) k = ix2 k d := by
  funext a
  match a with
  | ⟨0, _⟩ => exact Fin.ext rfl
  | ⟨1, _⟩ => exact Fin.ext rfl

/-- The host's sum over the rows from the zero literal, at one feature: the finite sum over the 1024 rows. -/
theorem colSum_apply (x : FVec Ideal S1024x512 .f32) (d : Fin 512) :
    Host.reduceAdd x (constant S_ .f32 0x00000000#32) reducesTo_S1024x512_S512_d0 h_S_ (ix1 d)
      = ∑ r : Fin 1024, x (ix2 r d) := by
  have hR : Shape.Reduces S1024x512 [0] S512 := by decide
  show Ideal.hostReduceAdd reducesTo_S1024x512_S512_d0 x (Ideal.ofBits .f32 0x00000000#32) (ix1 d) = _
  rw [Ideal.hostReduceAdd_single _ hR, Ideal.ofBits_zero_f32, zero_add]
  exact Finset.sum_congr rfl fun k _ => congrArg x (lift_rows hR d k)

/-- The batch mean at one feature. -/
theorem rMean_apply (y : FVec Ideal S1024x512 .f32) (d : Fin 512) :
    rMean (F := Ideal) y (ix1 d) = Cert.Spec.mean (fun r d => y (ix2 r d)) d := by
  unfold rMean Cert.Spec.mean
  show Ideal.div (Host.reduceAdd y (constant S_ .f32 0x00000000#32) reducesTo_S1024x512_S512_d0 h_S_ (ix1 d))
      (broadcastInDim S512 ![] bcast_S_S512 (constant (F := Ideal) S_ .f32 0x44800000#32) (ix1 d)) = _
  rw [colSum_apply, bcast0_apply]
  rfl

/-- The mean as the variance spells it — the row sums laid out as [1, 512], divided there, and laid along the
    rows — is the same mean at every row. -/
theorem meanRows_apply (y : FVec Ideal S1024x512 .f32) (r : Fin 1024) (d : Fin 512) :
    broadcastInDim S1024x512 ![0, 1] bcast_S1x512_S1024x512_0_1
        (Host.divf
          (broadcastInDim S1x512 ![1] bcast_S512_S1x512_1
            (Host.reduceAdd y (constant S_ .f32 0x00000000#32) reducesTo_S1024x512_S512_d0 h_S_))
          (broadcastInDim S1x512 ![] bcast_S_S1x512 (constant S_ .f32 0x44800000#32))) (ix2 r d)
      = Cert.Spec.mean (fun r d => y (ix2 r d)) d := by
  refine (broadcastInDim_apply _ _ _ (ix2 r d) (ix2 (0 : Fin 1) d) ?_).trans ?_
  · intro a
    match a with
    | ⟨0, _⟩ => rfl
    | ⟨1, _⟩ => rfl
  · unfold Cert.Spec.mean
    show Ideal.div
        (broadcastInDim S1x512 ![1] bcast_S512_S1x512_1
          (Host.reduceAdd y (constant S_ .f32 0x00000000#32) reducesTo_S1024x512_S512_d0 h_S_) (ix2 (0 : Fin 1) d))
        (broadcastInDim S1x512 ![] bcast_S_S1x512 (constant (F := Ideal) S_ .f32 0x44800000#32) (ix2 (0 : Fin 1) d)) = _
    rw [bcast0_apply]
    refine congrArg (fun s => Ideal.div s _) ?_
    refine (broadcastInDim_apply _ _ _ (ix2 (0 : Fin 1) d) (ix1 d) ?_).trans (colSum_apply y d)
    intro a
    match a with
    | ⟨0, _⟩ => rfl

/-- The f32 literal `0x44800000` denotes the real 1024. -/
theorem ofBits_1024 : Ideal.ofBits .f32 0x44800000#32 = ((1024 : ℝ) : EReal) := by
  simp [Ideal.ofBits, Ideal.ieee, -EReal.coe_mul]; norm_num

/-- The variance's divisor `1024 − ddof` at `ddof = 0`: the integer 0 converts to the real 0, so it is the literal 1024. -/
theorem rCount_apply : rCount (F := Ideal) ix0 = Ideal.ofBits .f32 0x44800000#32 := by
  show Ideal.ofBits .f32 0x44800000#32 - ((((0#32 : BitVec 32).toInt : ℤ) : ℝ) : EReal) = _
  simp

/-- The host's quotient at an index divides the elements. -/
theorem hostDivf_apply {s : Shape} (a c : FVec Ideal s .f32) (j : s.Idx) : Host.divf a c j = Ideal.div (a j) (c j) := rfl

/-- The host's reciprocal square root at an index takes it of the element. -/
theorem hostRsqrt_apply {s : Shape} (a : FVec Ideal s .f32) (j : s.Idx) : Host.rsqrt a j = Ideal.rsqrt (a j) := rfl

/-- The guard `1024 − ddof > 0` holds: the literal 1024 is positive. -/
theorem rGuard_apply (d : Fin 512) :
    broadcastInDim S512 ![] bcast_S_S512 (cmpf .ogt (rCount (F := Ideal)) (constant S_ .f32 0x00000000#32)) (ix1 d) = 1#1 := by
  have hpos : (0 : EReal) < Ideal.ofBits .f32 0x44800000#32 := by
    rw [ofBits_1024]; exact EReal.coe_pos.mpr (by norm_num)
  rw [bcast0_apply, cmpf_apply, rCount_apply, constant_apply, Ideal.cmpf_def, Ideal.ofBits_zero_f32]
  show BitVec.ofBool (decide ((0 : EReal) < Ideal.ofBits .f32 0x44800000#32)) = 1#1
  rw [decide_eq_true hpos]
  rfl

/-- The biased batch variance at one feature: the guard holds, so the select keeps the quotient of the summed squared
    deviations by the literal 1024. -/
theorem rVar_apply (y : FVec Ideal S1024x512 .f32) (d : Fin 512) :
    rVar (F := Ideal) y (ix1 d) = Cert.Spec.var (fun r d => y (ix2 r d)) d := by
  unfold rVar Cert.Spec.var
  rw [select_apply, rGuard_apply, select_one, hostDivf_apply, colSum_apply, bcast0_apply, rCount_apply]
  refine congrArg (fun s => Ideal.div s _) (Finset.sum_congr rfl fun r _ => ?_)
  rw [mulf_apply, subf_apply, meanRows_apply]

theorem rOut_apply (y : FVec Ideal S1024x512 .f32) (g β : FVec Ideal S512 .f32) (b : Fin 16) (i : Fin 64) (d : Fin 512) :
    rOut (F := Ideal) y g β (ix3 b i d)
      = Cert.Spec.bn (fun r d => y (ix2 r d)) g β (Cert.Spec.row b i) d := by
  unfold rOut
  rw [shapeCast_rows_apply, rLeaky2_apply]
  unfold Cert.Spec.bn
  refine congrArg Cert.Spec.lk ?_
  rw [addf_apply, mulf_apply, mulf_apply, subf_apply, rBias2_apply, rBias2_apply, rBias2_apply, rBias2_apply,
    rMean_apply, hostRsqrt_apply, addf_apply, rVar_apply, bcast0_apply, constant_apply]

end Cert.ReferenceIdeal.RefValue

end
-- ==== Proof.lean ====
/-
  The relation-network kernel pair against its jnp reference, on the extended reals.

  Both programs compute, for 16 graphs of 64 nodes with 512 features: a two-layer leaky perceptron on every ordered
  pair of nodes of a graph (the first layer split as a sum of one projection of each node), the sum of the pair
  features over the partner node, a linear layer on the node's own features joined with that sum, and a batch
  normalization over all 1024 rows followed by one more leaky unit (Proof/Spec.lean states this function).
  The kernel program does the pair network and the linear layer in one call per graph and the normalization in a
  second call on the flattened rows; the reference does everything with whole-array operations, the linear layer as
  ONE product of the concatenation `[X, msg]` with the 1024-row weight matrix. The two agree because a sum over
  1024 = 512 + 512 contraction indices is the sum of its two halves (a law of the commutative monoid of extended
  reals, so no finiteness is used), because a change of float format is the identity there, and because the
  reference's variance divides by `1024 - 0` under a guard `1024 - 0 > 0` that holds.
  The frames of the two kernel programs are the generated ones; the reference's frame is its run with the result
  dropped; the idealization rewrote nothing, so there is nothing to preserve.
-/
import proofs.«415910_j38972533243937_3_alg».proof.Defs
import proofs.«415910_j38972533243937_3_alg».proof.Proof.Gen.Kernel
import proofs.«415910_j38972533243937_3_alg».proof.Proof.Gen.Kernel.Skeleton
import proofs.«415910_j38972533243937_3_alg».proof.Proof.Gen.Kernel.Launch
import proofs.«415910_j38972533243937_3_alg».proof.Proof.Gen.Kernel.Points
import proofs.«415910_j38972533243937_3_alg».proof.Proof.Gen.Kernel.Frame
import proofs.«415910_j38972533243937_3_alg».proof.Proof.Gen.KernelIdeal
import proofs.«415910_j38972533243937_3_alg».proof.Proof.Gen.KernelIdeal.Skeleton
import proofs.«415910_j38972533243937_3_alg».proof.Proof.Gen.KernelIdeal.Launch
import proofs.«415910_j38972533243937_3_alg».proof.Proof.Gen.KernelIdeal.Points
import proofs.«415910_j38972533243937_3_alg».proof.Proof.Gen.KernelIdeal.Frame
import proofs.«415910_j38972533243937_3_alg».proof.Proof.Gen.ReferenceIdeal
import proofs.«415910_j38972533243937_3_alg».proof.Proof.Gen.Pre_finite_inputs
import proofs.«415910_j38972533243937_3_alg».proof.Proof.Spec
import proofs.«415910_j38972533243937_3_alg».proof.Proof.KRun
import proofs.«415910_j38972533243937_3_alg».proof.Proof.KChain
import proofs.«415910_j38972533243937_3_alg».proof.Proof.RefTerm
import proofs.«415910_j38972533243937_3_alg».proof.Proof.RefRun
import proofs.«415910_j38972533243937_3_alg».proof.Proof.RefReadY
import proofs.«415910_j38972533243937_3_alg».proof.Proof.RefReadBN
import Idealize.ShloMosaic.Adequacy
import Idealize.ShloMosaic.Init
import Idealize.ShloMosaic.Lib.ValueIdx

noncomputable section

namespace Cert.Proof

open Idealize.ShloMosaic Idealize.ShloMosaic.TcCoe Idealize.ShloMosaic.ValueIdx Idealize.SL.Sem

/-- The reference's result term is the kernel program's result array: both are `Spec.out` of the same arguments. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.rOut (F := Ideal)
        (Cert.ReferenceIdeal.RefValue.rY
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = (Cert.KernelIdeal.Gen.W5 m ρ c (Proc.devRef .tc Cert.KernelIdeal.main_v8) : Cert.KernelIdeal.S16x64x512.Idx → EReal) := by
  funext j
  obtain ⟨b, i, d, rfl⟩ : ∃ (b : Fin 16) (i : Fin 64) (d : Fin 512), j = ix3 b i d := ⟨j 0, j 1, j 2, eq_ix3 j⟩
  rw [Cert.ReferenceIdeal.RefValue.rOut_apply]
  refine Eq.trans ?_ (Cert.KernelIdeal.KChain.result_apply m ρ c b i d).symm
  unfold Cert.Spec.out
  congr 1
  funext r d'
  exact Cert.ReferenceIdeal.RefValue.rY_apply _ _ _ _ _ _ _ r d'

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- From memories that agree on the nine arguments both programs end, the kernel program with its result array at
    the last boundary's contents and the reference with its result at the stage composition; the two are one array. -/
theorem algebraic : Cert.algebraic_KernelIdeal_ReferenceIdeal := by
  intro m ρ m' ρ' _ hagree
  refine ⟨fun c => Cert.KernelIdeal.Gen.W5 m ρ c (Proc.devRef .tc Cert.KernelIdeal.main_v8),
    Cert.KernelIdeal.Gen.run_result m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7, h8⟩ := hagree c
  rw [h0, h1, h2, h3, h4, h5, h6, h7, h8]
  exact value_eq m ρ c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
